-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x588 : Shape := ⟨3, ![16, 4096, 588]⟩
abbrev S16x4096x2 : Shape := ⟨3, ![16, 4096, 2]⟩
abbrev S16x4096 : Shape := ⟨2, ![16, 4096]⟩
abbrev S588x1152 : Shape := ⟨2, ![588, 1152]⟩
abbrev S2x4096x1152 : Shape := ⟨3, ![2, 4096, 1152]⟩
abbrev S_ : Shape := ⟨0, ![]⟩

class Facts : Prop where
  bcast_S_S16x4096x588 : S_.BroadcastsInDim S16x4096x588 (![] : Fin 0 → Fin S16x4096x588.rank)
  reducesTo_S16x4096x588_S_d0_1_2 : S16x4096x588.ReducesTo [0, 1, 2] S_
  h_S_ : 0 < S_.numel
  bcast_S_S588x1152 : S_.BroadcastsInDim S588x1152 (![] : Fin 0 → Fin S588x1152.rank)
  reducesTo_S588x1152_S_d0_1 : S588x1152.ReducesTo [0, 1] S_
  bcast_S_S2x4096x1152 : S_.BroadcastsInDim S2x4096x1152 (![] : Fin 0 → Fin S2x4096x1152.rank)
  reducesTo_S2x4096x1152_S_d0_1_2 : S2x4096x1152.ReducesTo [0, 1, 2] S_
  bcast_S_S16x4096x2 : S_.BroadcastsInDim S16x4096x2 (![] : Fin 0 → Fin S16x4096x2.rank)
  reducesTo_S16x4096x2_S_d0_1_2 : S16x4096x2.ReducesTo [0, 1, 2] S_

variable [Facts]

def fn_part1 {F : FTy → Type} [FloatOps F] (main_v13 : IVec S_ 1) (main_v15 : IVec S16x4096x2 1) (main_c_5 : IVec S_ 1) : IVec S_ 1 :=
  let main_v16 : IVec S_ 1 := (fun x v => Host.reduce IntOp.andi x v reducesTo_S16x4096x2_S_d0_1_2 h_S_) main_v15 main_c_5
  let main_v17 : IVec S_ 1 := andi main_v13 main_v16
  main_v17

def fn {F : FTy → Type} [FloatOps F] (main_arg0 : FVec F S16x4096x588 .f32) (main_arg1 : IVec S16x4096x2 32) (main_arg2 : IVec S16x4096 1) (main_arg3 : FVec F S588x1152 .f32) (main_arg4 : FVec F S2x4096x1152 .f32) : IVec S_ 1 :=
  let main_v0 : FVec F S16x4096x588 .f32 := Host.absf main_arg0
  let main_cst : FVec F S_ .f32 := constant S_ .f32 0x7F800000#32
  let main_v1 : FVec F S16x4096x588 .f32 := broadcastInDim S16x4096x588 ![] bcast_S_S16x4096x588 main_cst
  let main_v2 : IVec S16x4096x588 1 := cmpf .olt main_v0 main_v1
  let main_c : IVec S_ 1 := constantI S_ 1 1#1
  let main_v3 : IVec S_ 1 := (fun x v => Host.reduce IntOp.andi x v reducesTo_S16x4096x588_S_d0_1_2 h_S_) main_v2 main_c
  let main_v4 : FVec F S588x1152 .f32 := Host.absf main_arg3
  let main_cst_0 : FVec F S_ .f32 := constant S_ .f32 0x7F800000#32
  let main_v5 : FVec F S588x1152 .f32 := broadcastInDim S588x1152 ![] bcast_S_S588x1152 main_cst_0
  let main_v6 : IVec S588x1152 1 := cmpf .olt main_v4 main_v5
  let main_c_1 : IVec S_ 1 := constantI S_ 1 1#1
  let main_v7 : IVec S_ 1 := (fun x v => Host.reduce IntOp.andi x v reducesTo_S588x1152_S_d0_1 h_S_) main_v6 main_c_1
  let main_v8 : IVec S_ 1 := andi main_v3 main_v7
  let main_v9 : FVec F S2x4096x1152 .f32 := Host.absf main_arg4
  let main_cst_2 : FVec F S_ .f32 := constant S_ .f32 0x7F800000#32
  let main_v10 : FVec F S2x4096x1152 .f32 := broadcastInDim S2x4096x1152 ![] bcast_S_S2x4096x1152 main_cst_2
  let main_v11 : IVec S2x4096x1152 1 := cmpf .olt main_v9 main_v10
  let main_c_3 : IVec S_ 1 := constantI S_ 1 1#1
  let main_v12 : IVec S_ 1 := (fun x v => Host.reduce IntOp.andi x v reducesTo_S2x4096x1152_S_d0_1_2 h_S_) main_v11 main_c_3
  let main_v13 : IVec S_ 1 := andi main_v8 main_v12
  let main_c_4 : IVec S_ 32 := constantI S_ 32 4096#32
  let main_v14 : IVec S16x4096x2 32 := broadcastInDim S16x4096x2 ![] bcast_S_S16x4096x2 main_c_4
  let main_v15 : IVec S16x4096x2 1 := cmpi .slt main_arg1 main_v14
  let main_c_5 : IVec S_ 1 := constantI S_ 1 1#1
  fn_part1 (F := F) main_v13 main_v15 main_c_5
-- ==== Kernel.lean ====
abbrev S16x4096x588 : Shape := ⟨3, ![16, 4096, 588]⟩
abbrev S16x4096x2 : Shape := ⟨3, ![16, 4096, 2]⟩
abbrev S16x4096 : Shape := ⟨2, ![16, 4096]⟩
abbrev S588x1152 : Shape := ⟨2, ![588, 1152]⟩
abbrev S2x4096x1152 : Shape := ⟨3, ![2, 4096, 1152]⟩
abbrev S65536x588 : Shape := ⟨2, ![65536, 588]⟩
abbrev S_ : Shape := ⟨0, ![]⟩
abbrev S65536x2 : Shape := ⟨2, ![65536, 2]⟩
abbrev S65536x1 : Shape := ⟨2, ![65536, 1]⟩
abbrev S1x4096x1152 : Shape := ⟨3, ![1, 4096, 1152]⟩
abbrev S4096x1152 : Shape := ⟨2, ![4096, 1152]⟩
abbrev S65536x1152 : Shape := ⟨2, ![65536, 1152]⟩
abbrev S256x588 : Shape := ⟨2, ![256, 588]⟩
abbrev S256x1 : Shape := ⟨2, ![256, 1]⟩
abbrev S256x1152 : Shape := ⟨2, ![256, 1152]⟩
abbrev S256x4096 : Shape := ⟨2, ![256, 4096]⟩
abbrev S16x4096x1152 : Shape := ⟨3, ![16, 4096, 1152]⟩

abbrev nBuf : Space → Nat
  | .hbm => 25
  | .vmem => 13
  | .smem => 0
  | _ => 0

abbrev bufTy : (tb : Table) → Fin (tcTables nBuf tb) → BufTy
  | .hbm, ⟨0, _⟩ => ⟨S16x4096x588, .f32⟩
  | .hbm, ⟨1, _⟩ => ⟨S16x4096x2, .i32⟩
  | .hbm, ⟨2, _⟩ => ⟨S16x4096, .i1⟩
  | .hbm, ⟨3, _⟩ => ⟨S588x1152, .f32⟩
  | .hbm, ⟨4, _⟩ => ⟨S2x4096x1152, .f32⟩
  | .hbm, ⟨5, _⟩ => ⟨S65536x588, .f32⟩
  | .hbm, ⟨6, _⟩ => ⟨S_, .i32⟩
  | .hbm, ⟨7, _⟩ => ⟨S16x4096x2, .i32⟩
  | .hbm, ⟨8, _⟩ => ⟨S16x4096x2, .i32⟩
  | .hbm, ⟨9, _⟩ => ⟨S65536x2, .i32⟩
  | .hbm, ⟨10, _⟩ => ⟨S65536x1, .i32⟩
  | .hbm, ⟨11, _⟩ => ⟨S65536x1, .i32⟩
  | .hbm, ⟨12, _⟩ => ⟨S65536x1, .i1⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S1x4096x1152, .f32⟩
  | .hbm, ⟨18, _⟩ => ⟨S4096x1152, .f32⟩
  | .hbm, ⟨19, _⟩ => ⟨S4096x1152, .bf16⟩
  | .hbm, ⟨20, _⟩ => ⟨S1x4096x1152, .f32⟩
  | .hbm, ⟨21, _⟩ => ⟨S4096x1152, .f32⟩
  | .hbm, ⟨22, _⟩ => ⟨S4096x1152, .bf16⟩
  | .hbm, ⟨23, _⟩ => ⟨S65536x1152, .f32⟩
  | .hbm, ⟨24, _⟩ => ⟨S16x4096x1152, .f32⟩
  | .local _ .vmem, ⟨0, _⟩ => ⟨S256x588, .f32⟩
  | .local _ .vmem, ⟨1, _⟩ => ⟨S256x588, .f32⟩
  | .local _ .vmem, ⟨2, _⟩ => ⟨S256x1, .i32⟩
  | .local _ .vmem, ⟨3, _⟩ => ⟨S256x1, .i32⟩
  | .local _ .vmem, ⟨4, _⟩ => ⟨S256x1, .i32⟩
  | .local _ .vmem, ⟨5, _⟩ => ⟨S256x1, .i32⟩
  | .local _ .vmem, ⟨6, _⟩ => ⟨S256x1, .f32⟩
  | .local _ .vmem, ⟨7, _⟩ => ⟨S256x1, .f32⟩
  | .local _ .vmem, ⟨8, _⟩ => ⟨S588x1152, .f32⟩
  | .local _ .vmem, ⟨9, _⟩ => ⟨S4096x1152, .bf16⟩
  | .local _ .vmem, ⟨10, _⟩ => ⟨S4096x1152, .bf16⟩
  | .local _ .vmem, ⟨11, _⟩ => ⟨S256x1152, .f32⟩
  | .local _ .vmem, ⟨12, _⟩ => ⟨S256x1152, .f32⟩
  | _, _ => ⟨S16x4096x588, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x588 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S588x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1152 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x4096x588_S65536x588 : S16x4096x588.ShapeCasts S65536x588
  bcast_S_S16x4096x2 : S_.BroadcastsInDim S16x4096x2 (![] : Fin 0 → Fin S16x4096x2.rank)
  shapeCasts_S16x4096x2_S65536x2 : S16x4096x2.ShapeCasts S65536x2
  slices_S65536x2_S65536x1_0_0 : S65536x2.Slices ![0, 0] S65536x1
  slices_S65536x2_S65536x1_0_1 : S65536x2.Slices ![0, 1] S65536x1
  shapeCasts_S16x4096_S65536x1 : S16x4096.ShapeCasts S65536x1
  bcast_S_S65536x1 : S_.BroadcastsInDim S65536x1 (![] : Fin 0 → Fin S65536x1.rank)
  slices_S2x4096x1152_S1x4096x1152_0_0_0 : S2x4096x1152.Slices ![0, 0, 0] S1x4096x1152
  shapeCasts_S1x4096x1152_S4096x1152 : S1x4096x1152.ShapeCasts S4096x1152
  bitsLt_bf16_f32 : FTy.bits .bf16 < FTy.bits .f32
  slices_S2x4096x1152_S1x4096x1152_1_0_0 : S2x4096x1152.Slices ![1, 0, 0] S1x4096x1152
  inb_S256x588_S256x588_0_0 : ∀ a, (![0, 0] : Fin 2 → Nat) a + S256x588.size a ≤ S256x588.size a
  h_S256x588 : 0 < S256x588.numel
  shapeCasts_S256x588_S256x588 : S256x588.ShapeCasts S256x588
  inb_S588x1152_S588x1152_0_0 : ∀ a, (![0, 0] : Fin 2 → Nat) a + S588x1152.size a ≤ S588x1152.size a
  h_S588x1152 : 0 < S588x1152.numel
  iota_S256x4096_d1_w32 : S256x4096.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  natLt_1_32 : 1 < 32
  inb_S4096x1152_S4096x1152_0_0 : ∀ a, (![0, 0] : Fin 2 → Nat) a + S4096x1152.size a ≤ S4096x1152.size a
  h_S4096x1152 : 0 < S4096x1152.numel
  shapeCasts_S4096x1152_S4096x1152 : S4096x1152.ShapeCasts S4096x1152
  broadcasts_S256x1_S256x1152 : S256x1.Broadcasts S256x1152
  inb_S256x1152_S256x1152_0_0 : ∀ a, (![0, 0] : Fin 2 → Nat) a + S256x1152.size a ≤ S256x1152.size a
  h_S256x1152 : 0 < S256x1152.numel
  shapeCasts_S65536x1152_S16x4096x1152 : S65536x1152.ShapeCasts S16x4096x1152
  dot_S256x588_S588x1152_S256x1152_1_0_0_1_n_n_wf : DotDims.WF S256x588 S588x1152 S256x1152 [1] [0] [0] [1] [] []
  dot_S256x4096_S4096x1152_S256x1152_1_0_0_1_n_n_wf : DotDims.WF S256x4096 S4096x1152 S256x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x588.size a ≤ S65536x588.size a
  hwx0_0 : ∀ i : grid0.Coords, EltTy.bits .f32 = 32 ∨ (Rect.block (s := S65536x588) S256x588.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S65536x1.size a
  hwx0_1 : ∀ i : grid0.Coords, EltTy.bits .i32 = 32 ∨ (Rect.block (s := S65536x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S65536x1.size a
  hwx0_2 : ∀ i : grid0.Coords, EltTy.bits .i32 = 32 ∨ (Rect.block (s := S65536x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S65536x1.size a
  hwx0_3 : ∀ i : grid0.Coords, EltTy.bits .f32 = 32 ∨ (Rect.block (s := S65536x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S588x1152.size a ≤ S588x1152.size a
  hwx0_4 : ∀ i : grid0.Coords, EltTy.bits .f32 = 32 ∨ (Rect.block (s := S588x1152) S588x1152.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1152.size a ≤ S4096x1152.size a
  hwx0_5 : ∀ i : grid0.Coords, EltTy.bits .bf16 = 32 ∨ (Rect.block (s := S4096x1152) S4096x1152.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x1152.size a ≤ S4096x1152.size a
  hwx0_6 : ∀ i : grid0.Coords, EltTy.bits .bf16 = 32 ∨ (Rect.block (s := S4096x1152) S4096x1152.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1152.size a ≤ S65536x1152.size a
  hwx0_7 : ∀ i : grid0.Coords, EltTy.bits .f32 = 32 ∨ (Rect.block (s := S65536x1152) S256x1152.size (cc0_transform_7 i) (hinb0_7 i)).WholeWords (EltTy.packing .f32)

variable [Facts₀]

def dot_S256x588_S588x1152_S256x1152_1_0_0_1_n_n : DotDims S256x588 S588x1152 S256x1152 where
  lhsContracting := [1]
  rhsContracting := [0]
  lhsNonContracting := [0]
  rhsNonContracting := [1]
  lhsBatch := []
  rhsBatch := []
  wf := dot_S256x588_S588x1152_S256x1152_1_0_0_1_n_n_wf
def dot_S256x4096_S4096x1152_S256x1152_1_0_0_1_n_n : DotDims S256x4096 S4096x1152 S256x1152 where
  lhsContracting := [1]
  rhsContracting := [0]
  lhsNonContracting := [0]
  rhsNonContracting := [1]
  lhsBatch := []
  rhsBatch := []
  wf := dot_S256x4096_S4096x1152_S256x1152_1_0_0_1_n_n_wf

abbrev win0_0 : Pipeline.Window sig grid0 :=
  Pipeline.Window.ofSpec (Memref.whole main_v0) S256x588.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S588x1152.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4096x1152.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S4096x1152.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S256x1152.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x4096x588 : Shape := ⟨3, ![16, 4096, 588]⟩
abbrev S16x4096x2 : Shape := ⟨3, ![16, 4096, 2]⟩
abbrev S16x4096 : Shape := ⟨2, ![16, 4096]⟩
abbrev S588x1152 : Shape := ⟨2, ![588, 1152]⟩
abbrev S2x4096x1152 : Shape := ⟨3, ![2, 4096, 1152]⟩
abbrev S_ : Shape := ⟨0, ![]⟩
abbrev S16x4096x1152 : Shape := ⟨3, ![16, 4096, 1152]⟩
abbrev S1x4096x1152 : Shape := ⟨3, ![1, 4096, 1152]⟩
abbrev S4096x1152 : Shape := ⟨2, ![4096, 1152]⟩
abbrev S16x4096x1 : Shape := ⟨3, ![16, 4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S16x4096x588, .f32⟩
  | .hbm, ⟨1, _⟩ => ⟨S16x4096x2, .i32⟩
  | .hbm, ⟨2, _⟩ => ⟨S16x4096, .i1⟩
  | .hbm, ⟨3, _⟩ => ⟨S588x1152, .f32⟩
  | .hbm, ⟨4, _⟩ => ⟨S2x4096x1152, .f32⟩
  | .hbm, ⟨5, _⟩ => ⟨S_, .f32⟩
  | .hbm, ⟨6, _⟩ => ⟨S16x4096x588, .f32⟩
  | .hbm, ⟨7, _⟩ => ⟨S16x4096x588, .f32⟩
  | .hbm, ⟨8, _⟩ => ⟨S_, .f32⟩
  | .hbm, ⟨9, _⟩ => ⟨S16x4096x588, .f32⟩
  | .hbm, ⟨10, _⟩ => ⟨S16x4096x588, .f32⟩
  | .hbm, ⟨11, _⟩ => ⟨S16x4096x1152, .f32⟩
  | .hbm, ⟨12, _⟩ => ⟨S_, .i32⟩
  | .hbm, ⟨13, _⟩ => ⟨S16x4096x2, .i32⟩
  | .hbm, ⟨14, _⟩ => ⟨S16x4096x2, .i32⟩
  | .hbm, ⟨15, _⟩ => ⟨S1x4096x1152, .f32⟩
  | .hbm, ⟨16, _⟩ => ⟨S4096x1152, .f32⟩
  | .hbm, ⟨17, _⟩ => ⟨S16x4096x1, .i32⟩
  | .hbm, ⟨18, _⟩ => ⟨S16x4096, .i32⟩
  | .hbm, ⟨19, _⟩ => ⟨S_, .i32⟩
  | .hbm, ⟨20, _⟩ => ⟨S16x4096, .i32⟩
  | .hbm, ⟨21, _⟩ => ⟨S16x4096, .i1⟩
  | .hbm, ⟨22, _⟩ => ⟨S_, .i32⟩
  | .hbm, ⟨23, _⟩ => ⟨S16x4096, .i32⟩
  | .hbm, ⟨24, _⟩ => ⟨S16x4096, .i32⟩
  | .hbm, ⟨25, _⟩ => ⟨S16x4096, .i32⟩
  | .hbm, ⟨26, _⟩ => ⟨S16x4096x1, .i32⟩
  | .hbm, ⟨27, _⟩ => ⟨S16x4096x1152, .f32⟩
  | .hbm, ⟨28, _⟩ => ⟨S1x4096x1152, .f32⟩
  | .hbm, ⟨29, _⟩ => ⟨S4096x1152, .f32⟩
  | .hbm, ⟨30, _⟩ => ⟨S16x4096x1, .i32⟩
  | .hbm, ⟨31, _⟩ => ⟨S16x4096, .i32⟩
  | .hbm, ⟨32, _⟩ => ⟨S_, .i32⟩
  | .hbm, ⟨33, _⟩ => ⟨S16x4096, .i32⟩
  | .hbm, ⟨34, _⟩ => ⟨S16x4096, .i1⟩
  | .hbm, ⟨35, _⟩ => ⟨S_, .i32⟩
  | .hbm, ⟨36, _⟩ => ⟨S16x4096, .i32⟩
  | .hbm, ⟨37, _⟩ => ⟨S16x4096, .i32⟩
  | .hbm, ⟨38, _⟩ => ⟨S16x4096, .i32⟩
  | .hbm, ⟨39, _⟩ => ⟨S16x4096x1, .i32⟩
  | .hbm, ⟨40, _⟩ => ⟨S16x4096x1152, .f32⟩
  | .hbm, ⟨41, _⟩ => ⟨S16x4096x1152, .f32⟩
  | .hbm, ⟨42, _⟩ => ⟨S16x4096x1, .i1⟩
  | .hbm, ⟨43, _⟩ => ⟨S_, .f32⟩
  | .hbm, ⟨44, _⟩ => ⟨S_, .f32⟩
  | .hbm, ⟨45, _⟩ => ⟨S16x4096x1152, .i1⟩
  | .hbm, ⟨46, _⟩ => ⟨S16x4096x1152, .f32⟩
  | .hbm, ⟨47, _⟩ => ⟨S16x4096x1152, .f32⟩
  | .hbm, ⟨48, _⟩ => ⟨S16x4096x1152, .f32⟩
  | _, _ => ⟨S16x4096x588, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S_S16x4096x588 : S_.BroadcastsInDim S16x4096x588 (![] : Fin 0 → Fin S16x4096x588.rank)
  bcast_S_S16x4096x2 : S_.BroadcastsInDim S16x4096x2 (![] : Fin 0 → Fin S16x4096x2.rank)
  slices_S2x4096x1152_S1x4096x1152_0_0_0 : S2x4096x1152.Slices ![0, 0, 0] S1x4096x1152
  shapeCasts_S1x4096x1152_S4096x1152 : S1x4096x1152.ShapeCasts S4096x1152
  slices_S16x4096x2_S16x4096x1_0_0_0 : S16x4096x2.Slices ![0, 0, 0] S16x4096x1
  shapeCasts_S16x4096x1_S16x4096 : S16x4096x1.ShapeCasts S16x4096
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  slices_S2x4096x1152_S1x4096x1152_1_0_0 : S2x4096x1152.Slices ![1, 0, 0] S1x4096x1152
  slices_S16x4096x2_S16x4096x1_0_0_1 : S16x4096x2.Slices ![0, 0, 1] S16x4096x1
  bcast_S16x4096x1_S16x4096x1152_0_1_2 : S16x4096x1.BroadcastsInDim S16x4096x1152 (![0, 1, 2] : Fin 3 → Fin S16x4096x1152.rank)
  bcast_S_S16x4096x1152 : S_.BroadcastsInDim S16x4096x1152 (![] : Fin 0 → Fin S16x4096x1152.rank)
  dot_S16x4096x588_S588x1152_S16x4096x1152_2_0_01_1_n_n_wf : DotDims.WF S16x4096x588 S588x1152 S16x4096x1152 [2] [0] [0, 1] [1] [] []
  gather_S4096x1152_S16x4096x1_S16x4096x1152_2_0_n_n_0_2_11152_wf : GatherDims.WF S4096x1152 S16x4096x1 S16x4096x1152 [2] [0] [] [0] [] 2 ![1, 1152]

variable [Facts₀]

def dot_S16x4096x588_S588x1152_S16x4096x1152_2_0_01_1_n_n : DotDims S16x4096x588 S588x1152 S16x4096x1152 where
  lhsContracting := [2]
  rhsContracting := [0]
  lhsNonContracting := [0, 1]
  rhsNonContracting := [1]
  lhsBatch := []
  rhsBatch := []
  wf := dot_S16x4096x588_S588x1152_S16x4096x1152_2_0_01_1_n_n_wf
def gather_S4096x1152_S16x4096x1_S16x4096x1152_2_0_n_n_0_2_11152 : GatherDims S4096x1152 S16x4096x1 S16x4096x1152 where
  offsetDims := [2]
  collapsedSliceDims := [0]
  operandBatchingDims := []
  startIndicesBatchingDims := []
  startIndexMap := [0]
  indexVectorDim := 2
  sliceSizes := ![1, 1152]
  wf := gather_S4096x1152_S16x4096x1_S16x4096x1152_2_0_n_n_0_2_11152_wf

class Facts : Prop extends Facts₀ where

variable [Facts]
-- ==== Proof.Spec.lean ====
/-
  The patch embedder's result, index by index, as one function of the five argument arrays:

    out[b, n, h] = Σ_k (2 · (x[b, n, k] − ½)) · W[k, h]
                   + (0 if pad[b, n] else T[0, r₀, h] + T[1, r₁, h]),

  where r_j is the row the j-th position id of token (b, n) selects: the id raised to at least 0, then read
  as a row number of the 4096-row table (a take clamps it into 0 … 4095).  The kernel reaches the same rows
  by a product with a one-hot matrix: row p of that matrix has a one exactly in the column whose number is
  the (raised) id, so the product Σ_s hot(id, s) · T[s, h] is T[id, h] whenever id < 4096, and is 0 when no
  column matches.  The padding mask enters the kernel as the factor 1 − pad.
  This module states both forms over literal shapes and proves the one-hot sum; it imports no program.
-/
import Idealize.ShloMosaic.PureOps.Ideal
import Idealize.ShloMosaic.PureOps.Ideal.Laws
import Idealize.ShloMosaic.Lib.ValueIdx

noncomputable section

namespace Cert.Embed

open Idealize.ShloMosaic Idealize.ShloMosaic.ValueIdx

/-- The literal 2.0 both programs scale by. -/
abbrev cTwo : EReal := Ideal.ofBits .f32 0x40000000#32
/-- The literal 0.5 both programs subtract. -/
abbrev cHalf : EReal := Ideal.ofBits .f32 0x3F000000#32
/-- The reference's literal 0.0 for a padded token. -/
abbrev cZero : EReal := Ideal.ofBits .f32 0x00000000#32
/-- The literal 1.0 the kernel's host side subtracts the padding bit from. -/
abbrev cOne : EReal := Ideal.ofBits .f32 0x3F800000#32

/-- Entry `s` of the one-hot row the kernel builds for the id word `b`: the bit "column number `s` equals `b`",
    widened to a word and read as a signed integer. -/
def hot (b : BitVec 32) (s : Fin 4096) : EReal :=
  (((IntOp.cmpi .eq (BitVec.ofNat 32 s.val) b).setWidth 32).toInt : ℝ)

/-- The table row the reference's take reads for the id word `b`: `b` raised to at least 0, a negative word
    wrapped by the table's height (never taken after the raise), read signed and clamped into 0 … 4095. -/
def refRow (b : BitVec 32) : Fin 4096 :=
  ⟨min (Scalar.select (IntOp.cmpi .slt (IntOp.maxsi b 0#32) 0#32) (IntOp.addi (IntOp.maxsi b 0#32) 4096#32)
      (IntOp.maxsi b 0#32)).toInt.toNat (4096 - 1), by omega⟩

/-- THE RESULT as the reference computes it, at index (b, n, h). -/
def spec (x : (⟨3, ![16, 4096, 588]⟩ : Shape).Idx → EReal) (ids : (⟨3, ![16, 4096, 2]⟩ : Shape).Idx → BitVec 32)
    (pad : (⟨2, ![16, 4096]⟩ : Shape).Idx → BitVec 1) (w : (⟨2, ![588, 1152]⟩ : Shape).Idx → EReal)
    (tab : (⟨3, ![2, 4096, 1152]⟩ : Shape).Idx → EReal) : (⟨3, ![16, 4096, 1152]⟩ : Shape).Idx → EReal :=
  fun i => (∑ k : Fin 588, (cTwo * (x (ix3 (i 0) (i 1) k) - cHalf)) * w (ix2 k (i 2)))
    + Scalar.select (pad (ix2 (i 0) (i 1))) cZero
        (tab (ix3 (0 : Fin 2) (refRow (ids (ix3 (i 0) (i 1) (0 : Fin 2)))) (i 2))
          + tab (ix3 (1 : Fin 2) (refRow (ids (ix3 (i 0) (i 1) (1 : Fin 2)))) (i 2)))

/-- What the kernel body computes from one grid point's blocks: 256 tokens' pixels `x`, their two id columns
    `i0`, `i1`, their mask column `mk`, and the whole of `W` and of the two tables. -/
def kblock (x : (⟨2, ![256, 588]⟩ : Shape).Idx → EReal) (w : (⟨2, ![588, 1152]⟩ : Shape).Idx → EReal)
    (i0 : (⟨2, ![256, 1]⟩ : Shape).Idx → BitVec 32) (t0 : (⟨2, ![4096, 1152]⟩ : Shape).Idx → EReal)
    (i1 : (⟨2, ![256, 1]⟩ : Shape).Idx → BitVec 32) (t1 : (⟨2, ![4096, 1152]⟩ : Shape).Idx → EReal)
    (mk : (⟨2, ![256, 1]⟩ : Shape).Idx → EReal) : (⟨2, ![256, 1152]⟩ : Shape).Idx → EReal :=
  fun j => (∑ k : Fin 588, (cTwo * (x (ix2 (j 0) k) - cHalf)) * w (ix2 k (j 1)))
    + ((∑ s : Fin 4096, hot (i0 (ix2 (j 0) (0 : Fin 1))) s * t0 (ix2 s (j 1)))
        + (∑ s : Fin 4096, hot (i1 (ix2 (j 0) (0 : Fin 1))) s * t1 (ix2 s (j 1)))) * mk (ix2 (j 0) (0 : Fin 1))

/-- The same over all 65536 tokens: what the kernel's flat result array holds, from the flat arrays the
    pallas_call is launched on. -/
def kflat (x : (⟨2, ![65536, 588]⟩ : Shape).Idx → EReal) (i0 i1 : (⟨2, ![65536, 1]⟩ : Shape).Idx → BitVec 32)
    (mk : (⟨2, ![65536, 1]⟩ : Shape).Idx → EReal) (w : (⟨2, ![588, 1152]⟩ : Shape).Idx → EReal)
    (t0 t1 : (⟨2, ![4096, 1152]⟩ : Shape).Idx → EReal) : (⟨2, ![65536, 1152]⟩ : Shape).Idx → EReal :=
  fun i => (∑ k : Fin 588, (cTwo * (x (ix2 (i 0) k) - cHalf)) * w (ix2 k (i 1)))
    + ((∑ s : Fin 4096, hot (i0 (ix2 (i 0) (0 : Fin 1))) s * t0 (ix2 s (i 1)))
        + (∑ s : Fin 4096, hot (i1 (ix2 (i 0) (0 : Fin 1))) s * t1 (ix2 s (i 1)))) * mk (ix2 (i 0) (0 : Fin 1))

/-- A one-hot entry is 1 on the column whose number is the word and 0 elsewhere. -/
theorem hot_eq (b : BitVec 32) (s : Fin 4096) : hot b s = if BitVec.ofNat 32 s.val = b then 1 else 0 := by
  unfold hot
  by_cases h : BitVec.ofNat 32 s.val = b
  · rw [if_pos h]
    have : IntOp.cmpi .eq (BitVec.ofNat 32 s.val) b = 1#1 := by simp [IntOp.cmpi, h]
    rw [this]
    norm_num
  · rw [if_neg h]
    have : IntOp.cmpi .eq (BitVec.ofNat 32 s.val) b = 0#1 := by simp [IntOp.cmpi, beq_eq_false_iff_ne.mpr h]
    rw [this]
    norm_num

/-- THE ONE-HOT PRODUCT IS A ROW LOOKUP: for an id word below the table's height, the sum over the columns of
    the one-hot entry times the table's entry is the table's entry in the id's row.  Every other term is
    0 · T = 0 on the extended reals, whatever T is. -/
theorem hot_sum (b : BitVec 32) (hb : b.toNat < 4096) (T : Fin 4096 → EReal) :
    ∑ s : Fin 4096, hot b s * T s = T ⟨b.toNat, hb⟩ := by
  rw [Finset.sum_eq_single (⟨b.toNat, hb⟩ : Fin 4096)]
  · rw [hot_eq, if_pos (by simp), one_mul]
  · intro s _ hs
    rw [hot_eq, if_neg, zero_mul]
    intro h
    apply hs
    apply Fin.ext
    have := congrArg BitVec.toNat h
    simp only [BitVec.toNat_ofNat] at this
    have hs4 : s.val < 4096 := s.isLt
    show s.val = b.toNat
    omega
  · intro h; exact absurd (Finset.mem_univ _) h

end Cert.Embed

end
-- ==== Proof.Lookup.lean ====
/-
  The three small facts that join the kernel's form of the position embedding to the reference's:

  * a position id below 4096 (read signed), raised to at least 0, is a word whose unsigned reading is below 4096,
    and it is the row the reference's take reads: nothing is clamped and nothing wraps;
  * hence the kernel's one-hot product with a table is the table's entry in that row;
  * multiplying by the mask 1 − pad, pad a bit, is choosing 0 when the bit is set: x · 0 = 0 and x · 1 = x on the
    extended reals, for every x.
-/
import proofs.«406469_j49331994362286_4_alg».proof.Proof.Spec
import Idealize.ShloMosaic.Lib.IdealHost

noncomputable section

namespace Cert.Embed

open Idealize.ShloMosaic Idealize.ShloMosaic.ValueIdx

/-- A word read signed is its unsigned reading, less 2³² when the top half of the range. -/
theorem toInt_cases (b : BitVec 32) : (b.toNat < 2147483648 ∧ b.toInt = b.toNat) ∨ (2147483648 ≤ b.toNat ∧ b.toInt = (b.toNat : Int) - 4294967296) := by
  have h := BitVec.toInt_eq_toNat_cond b
  have hlt : b.toNat < 4294967296 := b.isLt
  by_cases hc : 2 * b.toNat < 2 ^ 32
  · rw [if_pos hc] at h; left; exact ⟨by omega, h⟩
  · rw [if_neg hc] at h; right; exact ⟨by omega, by rw [h]; norm_num⟩

/-- The id raised to at least 0. -/
abbrev raised (b : BitVec 32) : BitVec 32 := IntOp.maxsi b 0#32

/-- A signed id below 4096, raised to at least 0, reads unsigned below 4096. -/
theorem raised_lt (b : BitVec 32) (hb : b.toInt < 4096) : (raised b).toNat < 4096 := by
  unfold raised IntOp.maxsi
  by_cases h : (0#32 : BitVec 32).slt b
  · rw [if_pos h]
    have h' := BitVec.slt_iff_toInt_lt.1 h
    have h0 : (0#32 : BitVec 32).toInt = 0 := by decide
    rcases toInt_cases b with ⟨-, e⟩ | ⟨-, e⟩ <;> omega
  · rw [if_neg h]; decide

/-- The raised id read signed is its unsigned reading. -/
theorem raised_toInt (b : BitVec 32) (hb : b.toInt < 4096) : (raised b).toInt = (raised b).toNat := by
  have h := raised_lt b hb
  rcases toInt_cases (raised b) with ⟨-, e⟩ | ⟨h2, -⟩
  · exact e
  · omega

/-- The row the reference's take reads is the raised id's own number. -/
theorem refRow_eq (b : BitVec 32) (hb : b.toInt < 4096) : refRow b = ⟨(raised b).toNat, raised_lt b hb⟩ := by
  have h := raised_lt b hb
  have hi := raised_toInt b hb
  have hs : IntOp.cmpi .slt (raised b) 0#32 = 0#1 := by
    unfold IntOp.cmpi
    have : (raised b).slt 0#32 = false := by
      rw [Bool.eq_false_iff]
      intro hh
      have := BitVec.slt_iff_toInt_lt.1 hh
      have h0 : (0#32 : BitVec 32).toInt = 0 := by decide
      omega
    simp [this]
  apply Fin.ext
  show min (Scalar.select (IntOp.cmpi .slt (raised b) 0#32) (IntOp.addi (raised b) 4096#32) (raised b)).toInt.toNat (4096 - 1) = (raised b).toNat
  rw [hs, select_zero, hi]
  omega

/-- THE KERNEL'S ONE-HOT PRODUCT IS THE REFERENCE'S ROW: for an id below 4096. -/
theorem lookup_eq (b : BitVec 32) (hb : b.toInt < 4096) (T : Fin 4096 → EReal) :
    ∑ s : Fin 4096, hot (raised b) s * T s = T (refRow b) := by
  rw [hot_sum (raised b) (raised_lt b hb) T, refRow_eq b hb]

/-- THE MASK: a product with 1 − pad is the choice of 0 on a set bit. -/
theorem mask_mul (p : BitVec 1) (A : EReal) :
    A * (cOne - ((p.toNat : ℝ) : EReal)) = Scalar.select p cZero A := by
  have h1 : cOne = 1 := Ideal.ofBits_one_f32
  have h0 : cZero = 0 := Ideal.ofBits_zero_f32
  rw [h1, h0]
  rcases BitVec.eq_zero_or_eq_one p with rfl | rfl
  · rw [select_zero]
    simp
  · rw [select_one]
    have : (((1#1 : BitVec 1).toNat : ℝ) : EReal) = 1 := by norm_num
    rw [this]
    have e : (1 : EReal) - 1 = 0 := by
      rw [← EReal.coe_one, ← EReal.coe_sub, sub_self, EReal.coe_zero]
    rw [e, mul_zero]

end Cert.Embed

end
-- ==== Proof.Payload.lean ====
/-
  The kernel body's arithmetic, read at one index of its [256, 1152] result.

  With x the block of 256 tokens' pixels, W the weights, b₀ and b₁ the two columns of position-id words, T₀ and T₁
  the two tables and m the mask column, the body computes at (p, q)

      Σ_k (2 · (x[p, k] − ½)) · W[k, q]  +  (Σ_s H₀[p, s] · T₀[s, q]  +  Σ_s H₁[p, s] · T₁[s, q]) · m[p, 0],

  where H_j[p, s] is the bit "s equals the word b_j[p, 0]", widened to a word and read as a signed integer: row p
  of H_j is the one-hot row of the id.  Three facts carry the proof.  A product into a zero accumulator, read at
  (p, q), is the sum over its one contraction axis of the operands' products, the left operand read at (p, k) and
  the right at (k, q).  A change of float format is the identity on the extended reals, and a cast to the same
  shape is the identity.  A column [256, 1] broadcast along a second axis is read at (p, 0), and the counter
  along axis 1 reads the column number s at (p, s).
-/
import proofs.«406469_j49331994362286_4_alg».proof.Proof.Spec
import proofs.«406469_j49331994362286_4_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Embed.Pay

open Idealize.ShloMosaic Idealize.ShloMosaic.ValueIdx Cert.KernelIdeal Cert.KernelIdeal.Gen

/-! ## The [256, 588] × [588, 1152] product -/

/-- Axis 0 of the left operand is free: it carries the result's row. -/
theorem lhs_588_0 (i : S256x1152.Idx) (c : dot_S256x588_S588x1152_S256x1152_1_0_0_1_n_n.contr.Idx) :
    (dot_S256x588_S588x1152_S256x1152_1_0_0_1_n_n.lhsIdx i c 0).val = (i 0).val := by
  unfold DotDims.lhsIdx
  rw [dif_neg (show ¬(0 : Fin S256x588.rank) ∈ dot_S256x588_S588x1152_S256x1152_1_0_0_1_n_n.lhsBatch by decide), dif_pos (show (0 : Fin S256x588.rank) ∈ dot_S256x588_S588x1152_S256x1152_1_0_0_1_n_n.lhsNonContracting by decide)]
  rfl
/-- Axis 1 of the left operand is the contracted one. -/
theorem lhs_588_1 (i : S256x1152.Idx) (c : dot_S256x588_S588x1152_S256x1152_1_0_0_1_n_n.contr.Idx) :
    (dot_S256x588_S588x1152_S256x1152_1_0_0_1_n_n.lhsIdx i c 1).val = (c ⟨0, by decide⟩).val :=
  dot_S256x588_S588x1152_S256x1152_1_0_0_1_n_n.lhsIdx_val_of_single rfl i c
/-- Axis 0 of the right operand is the contracted one. -/
theorem rhs_588_0 (i : S256x1152.Idx) (c : dot_S256x588_S588x1152_S256x1152_1_0_0_1_n_n.contr.Idx) :
    (dot_S256x588_S588x1152_S256x1152_1_0_0_1_n_n.rhsIdx i c 0).val = (c ⟨0, by decide⟩).val :=
  dot_S256x588_S588x1152_S256x1152_1_0_0_1_n_n.rhsIdx_val_of_single rfl i c
/-- Axis 1 of the right operand is free: it carries the result's column. -/
theorem rhs_588_1 (i : S256x1152.Idx) (c : dot_S256x588_S588x1152_S256x1152_1_0_0_1_n_n.contr.Idx) :
    (dot_S256x588_S588x1152_S256x1152_1_0_0_1_n_n.rhsIdx i c 1).val = (i 1).val := by
  unfold DotDims.rhsIdx
  rw [dif_neg (show ¬(1 : Fin S588x1152.rank) ∈ dot_S256x588_S588x1152_S256x1152_1_0_0_1_n_n.rhsBatch by decide), dif_pos (show (1 : Fin S588x1152.rank) ∈ dot_S256x588_S588x1152_S256x1152_1_0_0_1_n_n.rhsNonContracting by decide)]
  rfl

/-- The product into a zero accumulator at (p, q): Σ_k l[p, k] · r[k, q]. -/
theorem mm588_apply (l : FVec Ideal S256x588 .bf16) (r : FVec Ideal S588x1152 .bf16) (p : Fin 256) (q : Fin 1152) :
    matmul dot_S256x588_S588x1152_S256x1152_1_0_0_1_n_n none l r (constant (F := Ideal) S256x1152 .f32 0x00000000#32) (ix2 p q)
      = ∑ k : Fin 588, l (ix2 p k) * r (ix2 k q) := by
  simp only [matmul]
  rw [Ideal.matmul_constant_zero_apply, ← Equiv.sum_comp (contrEquiv1 dot_S256x588_S588x1152_S256x1152_1_0_0_1_n_n 588 rfl rfl).symm]
  refine Finset.sum_congr rfl fun k _ => ?_
  have hk := contrEquiv1_symm_val dot_S256x588_S588x1152_S256x1152_1_0_0_1_n_n 588 rfl rfl k
  have el : dot_S256x588_S588x1152_S256x1152_1_0_0_1_n_n.lhsIdx (ix2 p q) ((contrEquiv1 dot_S256x588_S588x1152_S256x1152_1_0_0_1_n_n 588 rfl rfl).symm k) = ix2 p k := funext fun a => Fin.ext (by
    match a with
    | ⟨0, _⟩ => exact lhs_588_0 _ _
    | ⟨1, _⟩ => exact (lhs_588_1 _ _).trans hk)
  have er : dot_S256x588_S588x1152_S256x1152_1_0_0_1_n_n.rhsIdx (ix2 p q) ((contrEquiv1 dot_S256x588_S588x1152_S256x1152_1_0_0_1_n_n 588 rfl rfl).symm k) = ix2 k q := funext fun a => Fin.ext (by
    match a with
    | ⟨0, _⟩ => exact (rhs_588_0 _ _).trans hk
    | ⟨1, _⟩ => exact rhs_588_1 _ _)
  rw [el, er]

/-! ## The [256, 4096] × [4096, 1152] product -/

/-- Axis 0 of the left operand is free: it carries the result's row. -/
theorem lhs_4096_0 (i : S256x1152.Idx) (c : dot_S256x4096_S4096x1152_S256x1152_1_0_0_1_n_n.contr.Idx) :
    (dot_S256x4096_S4096x1152_S256x1152_1_0_0_1_n_n.lhsIdx i c 0).val = (i 0).val := by
  unfold DotDims.lhsIdx
  rw [dif_neg (show ¬(0 : Fin S256x4096.rank) ∈ dot_S256x4096_S4096x1152_S256x1152_1_0_0_1_n_n.lhsBatch by decide), dif_pos (show (0 : Fin S256x4096.rank) ∈ dot_S256x4096_S4096x1152_S256x1152_1_0_0_1_n_n.lhsNonContracting by decide)]
  rfl
/-- Axis 1 of the left operand is the contracted one. -/
theorem lhs_4096_1 (i : S256x1152.Idx) (c : dot_S256x4096_S4096x1152_S256x1152_1_0_0_1_n_n.contr.Idx) :
    (dot_S256x4096_S4096x1152_S256x1152_1_0_0_1_n_n.lhsIdx i c 1).val = (c ⟨0, by decide⟩).val :=
  dot_S256x4096_S4096x1152_S256x1152_1_0_0_1_n_n.lhsIdx_val_of_single rfl i c
/-- Axis 0 of the right operand is the contracted one. -/
theorem rhs_4096_0 (i : S256x1152.Idx) (c : dot_S256x4096_S4096x1152_S256x1152_1_0_0_1_n_n.contr.Idx) :
    (dot_S256x4096_S4096x1152_S256x1152_1_0_0_1_n_n.rhsIdx i c 0).val = (c ⟨0, by decide⟩).val :=
  dot_S256x4096_S4096x1152_S256x1152_1_0_0_1_n_n.rhsIdx_val_of_single rfl i c
/-- Axis 1 of the right operand is free: it carries the result's column. -/
theorem rhs_4096_1 (i : S256x1152.Idx) (c : dot_S256x4096_S4096x1152_S256x1152_1_0_0_1_n_n.contr.Idx) :
    (dot_S256x4096_S4096x1152_S256x1152_1_0_0_1_n_n.rhsIdx i c 1).val = (i 1).val := by
  unfold DotDims.rhsIdx
  rw [dif_neg (show ¬(1 : Fin S4096x1152.rank) ∈ dot_S256x4096_S4096x1152_S256x1152_1_0_0_1_n_n.rhsBatch by decide), dif_pos (show (1 : Fin S4096x1152.rank) ∈ dot_S256x4096_S4096x1152_S256x1152_1_0_0_1_n_n.rhsNonContracting by decide)]
  rfl

/-- The product into a zero accumulator at (p, q): Σ_s l[p, s] · r[s, q]. -/
theorem mm4096_apply (l : FVec Ideal S256x4096 .bf16) (r : FVec Ideal S4096x1152 .bf16) (p : Fin 256) (q : Fin 1152) :
    matmul dot_S256x4096_S4096x1152_S256x1152_1_0_0_1_n_n none l r (constant (F := Ideal) S256x1152 .f32 0x00000000#32) (ix2 p q)
      = ∑ s : Fin 4096, l (ix2 p s) * r (ix2 s q) := by
  simp only [matmul]
  rw [Ideal.matmul_constant_zero_apply, ← Equiv.sum_comp (contrEquiv1 dot_S256x4096_S4096x1152_S256x1152_1_0_0_1_n_n 4096 rfl rfl).symm]
  refine Finset.sum_congr rfl fun k _ => ?_
  have hk := contrEquiv1_symm_val dot_S256x4096_S4096x1152_S256x1152_1_0_0_1_n_n 4096 rfl rfl k
  have el : dot_S256x4096_S4096x1152_S256x1152_1_0_0_1_n_n.lhsIdx (ix2 p q) ((contrEquiv1 dot_S256x4096_S4096x1152_S256x1152_1_0_0_1_n_n 4096 rfl rfl).symm k) = ix2 p k := funext fun a => Fin.ext (by
    match a with
    | ⟨0, _⟩ => exact lhs_4096_0 _ _
    | ⟨1, _⟩ => exact (lhs_4096_1 _ _).trans hk)
  have er : dot_S256x4096_S4096x1152_S256x1152_1_0_0_1_n_n.rhsIdx (ix2 p q) ((contrEquiv1 dot_S256x4096_S4096x1152_S256x1152_1_0_0_1_n_n 4096 rfl rfl).symm k) = ix2 k q := funext fun a => Fin.ext (by
    match a with
    | ⟨0, _⟩ => exact (rhs_4096_0 _ _).trans hk
    | ⟨1, _⟩ => exact rhs_4096_1 _ _)
  rw [el, er]

/-! ## The layout operations of the body -/

/-- A column [256, 1], cast to its own shape and broadcast along a second axis of any length, is read at (p, 0). -/
theorem column_apply {α : Type} {n : Nat} (b : S256x1.Idx → α) (hc : S256x1.ShapeCasts S256x1)
    (hb : S256x1.Broadcasts (⟨2, ![256, n]⟩ : Shape)) (p : Fin 256) (s : Fin n) :
    broadcastTo (⟨2, ![256, n]⟩ : Shape) (shapeCast S256x1 b hc) hb (ix2 p s) = b (ix2 p (0 : Fin 1)) := by
  rw [shapeCast_self]
  exact broadcastTo_apply b hb (ix2 p s) (ix2 p (0 : Fin 1)) (fun a => match a with
    | ⟨0, _⟩ => by show p.val = if (256 : Nat) = 1 then 0 else p.val; rw [if_neg (by decide)]
    | ⟨1, _⟩ => by show (0 : Nat) = if (1 : Nat) = 1 then 0 else s.val; rw [if_pos rfl])

/-- ENTRY (p, s) OF THE ONE-HOT MATRIX: the counter along axis 1 compared with the broadcast id column, the bit
    widened to a word, the word read signed, the float narrowed (the identity here). -/
theorem onehot_apply (b : IVec S256x1 32) (hi : S256x4096.Iotas .tc 32 [1]) (hc : S256x1.ShapeCasts S256x1)
    (hb : S256x1.Broadcasts S256x4096) (h1 : 1 < 32) (ht : FTy.bits .bf16 < FTy.bits .f32) (p : Fin 256) (s : Fin 4096) :
    (truncf .bf16 (sitofp .f32 (extui 32 (cmpi .eq (iota .tc S256x4096 32 [1] hi)
        (broadcastTo S256x4096 (shapeCast S256x1 b hc) hb)) h1) : FVec Ideal S256x4096 .f32) ht : FVec Ideal S256x4096 .bf16) (ix2 p s)
      = Cert.Embed.hot (b (ix2 p (0 : Fin 1))) s := by
  rw [truncf_apply, sitofp_apply, extui_apply]
  show FloatOps.sitofp (F := Ideal) .f32 ((IntOp.cmpi .eq (iota .tc S256x4096 32 [1] hi (ix2 p s))
      (broadcastTo S256x4096 (shapeCast S256x1 b hc) hb (ix2 p s))).setWidth 32) = _
  rw [iota_single_apply, column_apply]
  rfl

/-- The body's last three operations at (p, q): a + (c₀ + c₁) · m[p, 0]. -/
theorem tail_apply (a c0 c1 : FVec Ideal S256x1152 .f32) (m : FVec Ideal S256x1 .f32) (hc : S256x1.ShapeCasts S256x1)
    (hb : S256x1.Broadcasts S256x1152) (p : Fin 256) (q : Fin 1152) :
    addf a (mulf (addf c0 c1) (broadcastTo S256x1152 (shapeCast S256x1 m hc) hb)) (ix2 p q)
      = a (ix2 p q) + (c0 (ix2 p q) + c1 (ix2 p q)) * m (ix2 p (0 : Fin 1)) := by
  rw [addf_apply, mulf_apply, addf_apply, column_apply]

/-- The scaled pixel at (p, k): 2 · (x[p, k] − ½), the cast and both format changes being identities. -/
theorem pixel_apply (x : FVec Ideal S256x588 .f32) (hc : S256x588.ShapeCasts S256x588) (ht : FTy.bits .bf16 < FTy.bits .f32)
    (p : Fin 256) (k : Fin 588) :
    (truncf .bf16 (mulf (broadcast S256x588 (Scalar.ofBits (F := Ideal) .f32 0x40000000#32))
        (subf (shapeCast S256x588 x hc) (broadcast S256x588 (Scalar.ofBits (F := Ideal) .f32 0x3F000000#32)))) ht
      : FVec Ideal S256x588 .bf16) (ix2 p k) = Cert.Embed.cTwo * (x (ix2 p k) - Cert.Embed.cHalf) := by
  rw [truncf_apply, mulf_apply, subf_apply, shapeCast_self]
  rfl

/-! ## The body -/

theorem pay_eq (v0 : Vec Ideal S256x588 .f32) (v7 : Vec Ideal S588x1152 .f32) (v11 : Vec Ideal S256x1 .i32) (v18 : Vec Ideal S4096x1152 .bf16) (v21 : Vec Ideal S256x1 .i32) (v28 : Vec Ideal S4096x1152 .bf16) (v32 : Vec Ideal S256x1 .f32) :
    k0_pay1 (F := Ideal) v0 v7 v11 v18 v21 v28 v32 = Cert.Embed.kblock v0 v7 v11 v18 v21 v28 v32 := by
  funext j
  obtain ⟨p, q, rfl⟩ : ∃ (p : Fin 256) (q : Fin 1152), j = ix2 p q := ⟨j 0, j 1, eq_ix2 j⟩
  unfold k0_pay1 Cert.Embed.kblock
  dsimp only
  refine (tail_apply _ _ _ _ _ _ p q).trans ?_
  rw [mm588_apply, mm4096_apply, mm4096_apply]
  show _ = (∑ k : Fin 588, (Cert.Embed.cTwo * (v0 (ix2 p k) - Cert.Embed.cHalf)) * v7 (ix2 k q))
    + ((∑ s : Fin 4096, Cert.Embed.hot (v11 (ix2 p (0 : Fin 1))) s * v18 (ix2 s q))
        + (∑ s : Fin 4096, Cert.Embed.hot (v21 (ix2 p (0 : Fin 1))) s * v28 (ix2 s q))) * v32 (ix2 p (0 : Fin 1))
  refine congrArg₂ (fun a b : EReal => a + b) (Finset.sum_congr rfl fun k _ => ?_)
    (congrArg (fun a : EReal => a * v32 (ix2 p (0 : Fin 1)))
      (congrArg₂ (fun a b : EReal => a + b) (Finset.sum_congr rfl fun s _ => ?_) (Finset.sum_congr rfl fun s _ => ?_)))
  · rw [pixel_apply, truncf_apply]
  · rw [onehot_apply, shapeCast_self]
  · rw [onehot_apply, shapeCast_self]

end Cert.Embed.Pay

end
-- ==== Proof.RefValue.lean ====
/-
  The reference program's result, read index by index, is the specification's function of the five argument
  arrays.  Every stage but the two row gathers is read at an index by the generated stage lemmas; the gather of
  whole rows is read here from its dimension numbers, the start-index words are brought to the word under the
  specification's clamp, and the two slice-and-reshape tables are read back to the stacked table by row-major
  arithmetic.
-/
import proofs.«406469_j49331994362286_4_alg».proof.Proof.Spec
import proofs.«406469_j49331994362286_4_alg».proof.Proof.Gen.ReferenceIdeal.Read

noncomputable section

namespace Cert.Embed.Ref

open Idealize.ShloMosaic Idealize.ShloMosaic.ValueIdx Cert.ReferenceIdeal Cert.ReferenceIdeal.Gen Cert.ReferenceIdeal.Read

/-- The gather of whole rows read at an index: result element (b, n, h) is the operand's entry in column h of
    the row the start index at (b, n, 0) names, that start read as a signed integer and clamped into
    0 … 4095.  On the operand's row axis only the clamped start contributes (the axis is collapsed, so its
    offset coordinate is 0, and there is no batching axis); on the column axis the start is 0 (the start
    index map does not name it) and the offset coordinate is the result's last coordinate. -/
theorem gather_row_apply {α : Type} {w : Nat} (x : S4096x1152.Idx → α) (idx : IVec S16x4096x1 w)
    (j : S16x4096x1152.Idx) :
    Host.gather gather_S4096x1152_S16x4096x1_S16x4096x1152_2_0_n_n_0_2_11152 x idx j
      = x (ix2 (⟨min (idx (ix3 (j 0) (j 1) (0 : Fin 1))).toInt.toNat (4096 - 1), by omega⟩ : Fin 4096) (j 2)) := by
  unfold Host.gather
  congr 1
  funext a
  refine Fin.ext ?_
  match a with
  | ⟨0, _⟩ =>
    show gather_S4096x1152_S16x4096x1_S16x4096x1152_2_0_n_n_0_2_11152.start j idx 0
        + gather_S4096x1152_S16x4096x1_S16x4096x1152_2_0_n_n_0_2_11152.batchCoord j 0
        + gather_S4096x1152_S16x4096x1_S16x4096x1152_2_0_n_n_0_2_11152.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4096x1152_S16x4096x1_S16x4096x1152_2_0_n_n_0_2_11152.startIndexMap
      from List.mem_singleton.mpr rfl)]
    have hsi : gather_S4096x1152_S16x4096x1_S16x4096x1152_2_0_n_n_0_2_11152.siIdx j
        ⟨List.idxOf (0 : Fin 2) gather_S4096x1152_S16x4096x1_S16x4096x1152_2_0_n_n_0_2_11152.startIndexMap,
          List.idxOf_lt_length_iff.2 (List.mem_singleton.mpr rfl)⟩ = ix3 (j 0) (j 1) (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S4096x1152_S16x4096x1_S16x4096x1152_2_0_n_n_0_2_11152.start j idx 1
        + gather_S4096x1152_S16x4096x1_S16x4096x1152_2_0_n_n_0_2_11152.batchCoord j 1
        + gather_S4096x1152_S16x4096x1_S16x4096x1152_2_0_n_n_0_2_11152.offCoord j 1 = (j 2).val
    rw [GatherDims.batchCoord_eq_zero _ _ _ List.not_mem_nil]
    unfold GatherDims.start
    rw [dif_neg (show ¬ (1 : Fin 2) ∈ gather_S4096x1152_S16x4096x1_S16x4096x1152_2_0_n_n_0_2_11152.startIndexMap
      by decide)]
    unfold GatherDims.offCoord
    rw [dif_pos (show (1 : Fin 2) ∈ gather_S4096x1152_S16x4096x1_S16x4096x1152_2_0_n_n_0_2_11152.sKept by decide)]
    simp only [Nat.zero_add]
    rfl

/-- The first start-index column at token (b, n): the id in column 0 raised to at least 0, then the wrap of
    a negative word by the table's height — exactly the word under the clamp in the specification's row. -/
theorem start0_at (x1 : (⟨S16x4096x2, .i32⟩ : BufTy).Contents (Elt Ideal)) (b : Fin 16) (n : Fin 4096) :
    val_main_v16 (F := Ideal) x1 (ix3 b n (0 : Fin 1))
      = Scalar.select (IntOp.cmpi .slt (IntOp.maxsi (x1 (ix3 b n (0 : Fin 2))) 0#32) 0#32)
          (IntOp.addi (IntOp.maxsi (x1 (ix3 b n (0 : Fin 2))) 0#32) 4096#32)
          (IntOp.maxsi (x1 (ix3 b n (0 : Fin 2))) 0#32) := by
  have hb : b.val < 16 := b.isLt
  have hn : n.val < 4096 := n.isLt
  have e : idx_main_v9 (idx_main_v10 (idx_main_v16 (ix3 b n (0 : Fin 1)))) = ix3 b n (0 : Fin 2) :=
    funext fun a => Fin.ext (by
      match a with
      | ⟨0, _⟩ => show (b.val * 4096 + n.val) / 4096 = b.val; omega
      | ⟨1, _⟩ => show (b.val * 4096 + n.val) / 1 % 4096 = n.val; omega
      | ⟨2, _⟩ => rfl)
  rw [val_main_v16_apply, val_main_v15_apply, val_main_v12_apply, val_main_v14_apply, val_main_v10_apply,
    val_main_v9_apply, val_main_v6_apply, val_main_v5_apply, val_main_c_apply, val_main_v13_apply,
    val_main_c_2_apply, val_main_v11_apply, val_main_c_1_apply, e]

/-- The second start-index column at token (b, n): the same word from the id in column 1. -/
theorem start1_at (x1 : (⟨S16x4096x2, .i32⟩ : BufTy).Contents (Elt Ideal)) (b : Fin 16) (n : Fin 4096) :
    val_main_v27 (F := Ideal) x1 (ix3 b n (0 : Fin 1))
      = Scalar.select (IntOp.cmpi .slt (IntOp.maxsi (x1 (ix3 b n (1 : Fin 2))) 0#32) 0#32)
          (IntOp.addi (IntOp.maxsi (x1 (ix3 b n (1 : Fin 2))) 0#32) 4096#32)
          (IntOp.maxsi (x1 (ix3 b n (1 : Fin 2))) 0#32) := by
  have hb : b.val < 16 := b.isLt
  have hn : n.val < 4096 := n.isLt
  have e : idx_main_v20 (idx_main_v21 (idx_main_v27 (ix3 b n (0 : Fin 1)))) = ix3 b n (1 : Fin 2) :=
    funext fun a => Fin.ext (by
      match a with
      | ⟨0, _⟩ => show (b.val * 4096 + n.val) / 4096 = b.val; omega
      | ⟨1, _⟩ => show (b.val * 4096 + n.val) / 1 % 4096 = n.val; omega
      | ⟨2, _⟩ => rfl)
  rw [val_main_v27_apply, val_main_v26_apply, val_main_v23_apply, val_main_v25_apply, val_main_v21_apply,
    val_main_v20_apply, val_main_v6_apply, val_main_v5_apply, val_main_c_apply, val_main_v24_apply,
    val_main_c_4_apply, val_main_v22_apply, val_main_c_3_apply, e]

/-- The first table as a matrix: entry (r, h) of the slice-and-reshape is entry (0, r, h) of the stacked
    tables (row-major: (r·1152 + h) / 1152 mod 4096 = r and (r·1152 + h) mod 1152 = h). -/
theorem table0_at (x4 : (⟨S2x4096x1152, .f32⟩ : BufTy).Contents (Elt Ideal)) (r : Fin 4096) (h : Fin 1152) :
    val_main_v8 (F := Ideal) x4 (ix2 r h) = x4 (ix3 (0 : Fin 2) r h) := by
  have hr : r.val < 4096 := r.isLt
  have hh : h.val < 1152 := h.isLt
  have e : idx_main_v7 (idx_main_v8 (ix2 r h)) = ix3 (0 : Fin 2) r h :=
    funext fun a => Fin.ext (by
      match a with
      | ⟨0, _⟩ => rfl
      | ⟨1, _⟩ => show (r.val * 1152 + h.val) / 1152 % 4096 = r.val; omega
      | ⟨2, _⟩ => show (r.val * 1152 + h.val) % 1152 = h.val; omega)
  rw [val_main_v8_apply, val_main_v7_apply, e]

/-- The second table as a matrix: entry (r, h) is entry (1, r, h) of the stacked tables. -/
theorem table1_at (x4 : (⟨S2x4096x1152, .f32⟩ : BufTy).Contents (Elt Ideal)) (r : Fin 4096) (h : Fin 1152) :
    val_main_v19 (F := Ideal) x4 (ix2 r h) = x4 (ix3 (1 : Fin 2) r h) := by
  have hr : r.val < 4096 := r.isLt
  have hh : h.val < 1152 := h.isLt
  have e : idx_main_v18 (idx_main_v19 (ix2 r h)) = ix3 (1 : Fin 2) r h :=
    funext fun a => Fin.ext (by
      match a with
      | ⟨0, _⟩ => rfl
      | ⟨1, _⟩ => show (r.val * 1152 + h.val) / 1152 % 4096 = r.val; omega
      | ⟨2, _⟩ => show (r.val * 1152 + h.val) % 1152 = h.val; omega)
  rw [val_main_v19_apply, val_main_v18_apply, e]

/-- The first gather at (b, n, h): the first table's entry in column h of the specification's row for the
    id in column 0. -/
theorem take0_at (x1 : (⟨S16x4096x2, .i32⟩ : BufTy).Contents (Elt Ideal))
    (x4 : (⟨S2x4096x1152, .f32⟩ : BufTy).Contents (Elt Ideal)) (b : Fin 16) (n : Fin 4096) (h : Fin 1152) :
    val_main_v17 (F := Ideal) x1 x4 (ix3 b n h)
      = x4 (ix3 (0 : Fin 2) (Cert.Embed.refRow (x1 (ix3 b n (0 : Fin 2)))) h) := by
  unfold val_main_v17
  rw [gather_row_apply, table0_at]
  show x4 (ix3 (0 : Fin 2) ⟨min (val_main_v16 (F := Ideal) x1 (ix3 b n (0 : Fin 1))).toInt.toNat (4096 - 1), _⟩ h) = _
  unfold Cert.Embed.refRow
  congr 3
  rw [start0_at]

/-- The second gather at (b, n, h): the second table's entry in the row for the id in column 1. -/
theorem take1_at (x1 : (⟨S16x4096x2, .i32⟩ : BufTy).Contents (Elt Ideal))
    (x4 : (⟨S2x4096x1152, .f32⟩ : BufTy).Contents (Elt Ideal)) (b : Fin 16) (n : Fin 4096) (h : Fin 1152) :
    val_main_v28 (F := Ideal) x1 x4 (ix3 b n h)
      = x4 (ix3 (1 : Fin 2) (Cert.Embed.refRow (x1 (ix3 b n (1 : Fin 2)))) h) := by
  unfold val_main_v28
  rw [gather_row_apply, table1_at]
  show x4 (ix3 (1 : Fin 2) ⟨min (val_main_v27 (F := Ideal) x1 (ix3 b n (0 : Fin 1))).toInt.toNat (4096 - 1), _⟩ h) = _
  unfold Cert.Embed.refRow
  congr 3
  rw [start1_at]

/-- THE REFERENCE IS THE SPECIFICATION.  At index (b, n, h) the last sum of the reference is the product's
    element plus the selected term; the product's element is the sum over k of (2 · (x − ½)) · W read at the
    composed indices, the mask bit is the padding bit of token (b, n), the value under a set bit is the literal
    0, and the value under a clear bit is the sum of the two row lookups above. -/
theorem ref_eq_spec (x0 : (⟨S16x4096x588, .f32⟩ : BufTy).Contents (Elt Ideal))
    (x1 : (⟨S16x4096x2, .i32⟩ : BufTy).Contents (Elt Ideal)) (x2 : (⟨S16x4096, .i1⟩ : BufTy).Contents (Elt Ideal))
    (x3 : (⟨S588x1152, .f32⟩ : BufTy).Contents (Elt Ideal)) (x4 : (⟨S2x4096x1152, .f32⟩ : BufTy).Contents (Elt Ideal)) :
    val_main_v32 (F := Ideal) x0 x1 x2 x3 x4 = Cert.Embed.spec x0 x1 x2 x3 x4 := by
  funext i
  obtain ⟨b, n, h, rfl⟩ : ∃ (b : Fin 16) (n : Fin 4096) (h : Fin 1152), i = ix3 b n h := ⟨i 0, i 1, i 2, eq_ix3 i⟩
  have el : ∀ k : Fin 588, lidx_main_v4 (ix3 b n h) k = ix3 b n k := fun k => funext fun a => Fin.ext (by
    match a with
    | ⟨0, _⟩ => rfl
    | ⟨1, _⟩ => rfl
    | ⟨2, _⟩ => rfl)
  have er : ∀ k : Fin 588, ridx_main_v4 (ix3 b n h) k = ix2 k h := fun k => funext fun a => Fin.ext (by
    match a with
    | ⟨0, _⟩ => rfl
    | ⟨1, _⟩ => rfl)
  have em : idx_main_v30 (idx_main_call0_v1 (ix3 b n h)) = ix2 b n := funext fun a => Fin.ext (by
    match a with
    | ⟨0, _⟩ => rfl
    | ⟨1, _⟩ => rfl)
  have hsum : val_main_v4 (F := Ideal) x0 x3 (ix3 b n h)
      = ∑ k : Fin 588, (Cert.Embed.cTwo * (x0 (ix3 b n k) - Cert.Embed.cHalf)) * x3 (ix2 k h) := by
    rw [val_main_v4_apply]
    refine Finset.sum_congr rfl fun k _ => ?_
    rw [el, er, val_main_v3_apply, val_main_v2_apply, val_main_cst_0_apply, val_main_v1_apply, val_main_v0_apply,
      val_main_cst_apply]
    rfl
  rw [val_main_v32_apply, hsum, val_main_v31_apply, val_main_call0_v1_apply, val_main_v30_apply, em,
    val_main_call0_v2_apply, val_main_call0_v0_apply, val_main_cst_5_apply, val_main_v29_apply, take0_at, take1_at]
  rfl

end Cert.Embed.Ref

end
-- ==== Proof.PreIds.lean ====
/-
  The precondition's last conjunct, read back at one entry.

  The precondition is one bit: the conjunction of four "all" tests, the last of which compares every entry of
  the [16, 4096, 2] array of position ids with the constant 4096, as signed words, and folds the resulting bits
  by "and" from 1.  When the whole bit is 1, the last test's bit is 1; a fold by "and" that ends in 1 met a 1 at
  every entry; and the bit at entry j is 1 exactly when the id at j, read signed, is below 4096.
-/
import proofs.«406469_j49331994362286_4_alg».proof.Pre_finite_inputs
import Idealize.ShloMosaic.Lib.ReduceAll
import Idealize.ShloMosaic.Lib.StableHlo.Predicate
import Idealize.ShloMosaic.Lib.ValueIdx
import Idealize.ShloMosaic.Lib.Pipeline.Value

namespace Cert.Embed.Pre

open Idealize.ShloMosaic Cert.Pre_finite_inputs

/-- The rank-0 shape has one index: there is no axis to differ on. -/
instance : Subsingleton S_.Idx := ⟨fun a b => funext fun d => d.elim0⟩

/-- EVERY POSITION ID IS BELOW 4096, read as a signed word, when the precondition holds. -/
theorem ids_lt_of_pre [Cert.Pre_finite_inputs.Facts] {F : FTy → Type} [FloatOps F] (a0 : FVec F S16x4096x588 .f32)
    (a1 : IVec S16x4096x2 32) (a2 : IVec S16x4096 1) (a3 : FVec F S588x1152 .f32) (a4 : FVec F S2x4096x1152 .f32)
    (h : Cert.Pre_finite_inputs.fn (F := F) a0 a1 a2 a3 a4 = fun _ => 1#1) (j : S16x4096x2.Idx) :
    (a1 j).toInt < 4096 := by
  -- the precondition's bit at its one index, with the chain of operations in view
  have h0 := congrFun h ValueIdx.ix0
  dsimp only [fn, fn_part1] at h0
  -- the outermost "and" is (the three float tests) ∧ (the id test): both are 1
  have h1 : IntOp.andi _ _ = 1#1 := h0
  obtain ⟨_, h2⟩ := IntOp.andi_eq_one.1 h1
  -- a fold by "and" over all entries that ends in 1 met a 1 at entry j
  have h3 := Host.reduce_andi_all _ _ _ _ _ h2 j
  -- at entry j the compared words are the id and the broadcast constant 4096
  have h4 : IntOp.cmpi .slt (a1 j) 4096#32 = 1#1 := h3
  -- the comparison's bit is 1 exactly when the signed readings are in that order
  unfold IntOp.cmpi at h4
  have h5 : (a1 j).slt 4096#32 = true := (StableHlo.Predicate.ofBool_eq_one_iff _).1 h4
  have h6 := BitVec.slt_iff_toInt_lt.1 h5
  have h7 : (4096#32 : BitVec 32).toInt = 4096 := by decide
  omega

end Cert.Embed.Pre
-- ==== Proof.KernelArr.lean ====
/-
  The kernel's flat result array.  The pallas_call runs 256 grid points; point t is handed rows 256·t … 256·t + 255
  of the pixel matrix, of the two id columns and of the mask column, and the whole of W and of the two tables, and
  writes rows 256·t … 256·t + 255 of the [65536, 1152] result.  What it writes is `Cert.Embed.kblock` of its blocks;
  since every operand of `kblock` at row p of point t is the flat array's entry at row 256·t + p, the 256 blocks
  are the row blocks of ONE function `Cert.Embed.kflat` of the flat arrays, they tile the result, and the array ends
  holding that function.  The reshape after the call lays the same entries out as [16, 4096, 1152].
-/
import proofs.«406469_j49331994362286_4_alg».proof.Proof.Spec
import proofs.«406469_j49331994362286_4_alg».proof.Proof.Payload
import proofs.«406469_j49331994362286_4_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.Embed.Kern

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## The flat arrays the call is launched on -/

abbrev aX (c : Dev nD) : S65536x588.Idx → EReal := V m c main_v0
abbrev aI0 (c : Dev nD) : S65536x1.Idx → BitVec 32 := V m c main_v4
abbrev aI1 (c : Dev nD) : S65536x1.Idx → BitVec 32 := V m c main_v5
abbrev aM (c : Dev nD) : S65536x1.Idx → EReal := V m c main_v9
abbrev aW (c : Dev nD) : S588x1152.Idx → EReal := V m c main_arg3
abbrev aT0 (c : Dev nD) : S4096x1152.Idx → EReal := V m c main_v12
abbrev aT1 (c : Dev nD) : S4096x1152.Idx → EReal := V m c main_v15

/-- The flat result: `kflat` of the flat arrays. -/
def G (c : Dev nD) : S65536x1152.Idx → EReal :=
  Cert.Embed.kflat (aX m c) (aI0 m c) (aI1 m c) (aM m c) (aW m c) (aT0 m c) (aT1 m c)

/-- The printed index maps, decided over the 256 points: the four streamed windows and the result's window sit at
    row block t and column block 0, the three resident windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each window's block at a point, as entries of its flat array -/

/-- Point t's pixel block: rows 256·t … of the flat pixel matrix. -/
theorem blkX_apply (c : Dev nD) (t : Fin cfg0.N) (y : S256x588.Idx) (i : S65536x588.Idx)
    (h0 : (i 0).val = t.val * 256 + (y 0).val) (h1 : (i 1).val = (y 1).val) :
    (iblk m c 0 t : S256x588.Idx → EReal) y = aX m c i := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 256 + 1 * (y 0).val = (i 0).val; rw [e0, h0]; omega
  | ⟨1, _⟩ => show win0_0.index t 1 * 588 + 1 * (y 1).val = (i 1).val; rw [e1, h1]; omega

/-- Point t's block of the first id column. -/
theorem blkI0_apply (c : Dev nD) (t : Fin cfg0.N) (y : S256x1.Idx) (i : S65536x1.Idx)
    (h0 : (i 0).val = t.val * 256 + (y 0).val) :
    (iblk m c 1 t : S256x1.Idx → BitVec 32) y = aI0 m c i := by
  obtain ⟨-, -, e0, e1, -⟩ := idx_facts t
  unfold iblk
  rw [View.read_apply]
  show V m c main_v4 _ = V m c main_v4 _
  congr 1
  funext a
  apply Fin.ext
  have hy : (y 1).val < 1 := (y 1).isLt
  have hi : (i 1).val < 1 := (i 1).isLt
  match a with
  | ⟨0, _⟩ => show win0_1.index t 0 * 256 + 1 * (y 0).val = (i 0).val; rw [e0, h0]; omega
  | ⟨1, _⟩ => show win0_1.index t 1 * 1 + 1 * (y 1).val = (i 1).val; rw [e1]; omega

/-- Point t's block of the second id column. -/
theorem blkI1_apply (c : Dev nD) (t : Fin cfg0.N) (y : S256x1.Idx) (i : S65536x1.Idx)
    (h0 : (i 0).val = t.val * 256 + (y 0).val) :
    (iblk m c 2 t : S256x1.Idx → BitVec 32) y = aI1 m c i := by
  obtain ⟨-, -, -, -, e0, e1, -⟩ := idx_facts t
  unfold iblk
  rw [View.read_apply]
  show V m c main_v5 _ = V m c main_v5 _
  congr 1
  funext a
  apply Fin.ext
  have hy : (y 1).val < 1 := (y 1).isLt
  have hi : (i 1).val < 1 := (i 1).isLt
  match a with
  | ⟨0, _⟩ => show win0_2.index t 0 * 256 + 1 * (y 0).val = (i 0).val; rw [e0, h0]; omega
  | ⟨1, _⟩ => show win0_2.index t 1 * 1 + 1 * (y 1).val = (i 1).val; rw [e1]; omega

/-- Point t's block of the mask column. -/
theorem blkM_apply (c : Dev nD) (t : Fin cfg0.N) (y : S256x1.Idx) (i : S65536x1.Idx)
    (h0 : (i 0).val = t.val * 256 + (y 0).val) :
    (iblk m c 3 t : S256x1.Idx → EReal) y = aM m c i := by
  obtain ⟨-, -, -, -, -, -, e0, e1, -⟩ := idx_facts t
  unfold iblk
  rw [View.read_apply]
  show V m c main_v9 _ = V m c main_v9 _
  congr 1
  funext a
  apply Fin.ext
  have hy : (y 1).val < 1 := (y 1).isLt
  have hi : (i 1).val < 1 := (i 1).isLt
  match a with
  | ⟨0, _⟩ => show win0_3.index t 0 * 256 + 1 * (y 0).val = (i 0).val; rw [e0, h0]; omega
  | ⟨1, _⟩ => show win0_3.index t 1 * 1 + 1 * (y 1).val = (i 1).val; rw [e1]; omega

/-- Every point's block of W is all of W. -/
theorem blkW_eq (c : Dev nD) (t : Fin cfg0.N) : (iblk m c 4 t : S588x1152.Idx → EReal) = aW m c := by
  obtain ⟨-, -, -, -, -, -, -, -, e0, e1, -⟩ := idx_facts t
  funext y
  unfold iblk
  rw [View.read_apply]
  show V m c main_arg3 _ = V m c main_arg3 _
  congr 1
  funext a
  apply Fin.ext
  match a with
  | ⟨0, _⟩ => show win0_4.index t 0 * 588 + 1 * (y 0).val = (y 0).val; rw [e0]; omega
  | ⟨1, _⟩ => show win0_4.index t 1 * 1152 + 1 * (y 1).val = (y 1).val; rw [e1]; omega

/-- Every point's block of the first table is the whole table. -/
theorem blkT0_eq (c : Dev nD) (t : Fin cfg0.N) : (iblk m c 5 t : S4096x1152.Idx → EReal) = aT0 m c := by
  obtain ⟨-, -, -, -, -, -, -, -, -, -, e0, e1, -⟩ := idx_facts t
  funext y
  unfold iblk
  rw [View.read_apply]
  show V m c main_v12 _ = V m c main_v12 _
  congr 1
  funext a
  apply Fin.ext
  match a with
  | ⟨0, _⟩ => show win0_5.index t 0 * 4096 + 1 * (y 0).val = (y 0).val; rw [e0]; omega
  | ⟨1, _⟩ => show win0_5.index t 1 * 1152 + 1 * (y 1).val = (y 1).val; rw [e1]; omega

/-- Every point's block of the second table is the whole table. -/
theorem blkT1_eq (c : Dev nD) (t : Fin cfg0.N) : (iblk m c 6 t : S4096x1152.Idx → EReal) = aT1 m c := by
  obtain ⟨-, -, -, -, -, -, -, -, -, -, -, -, e0, e1, -⟩ := idx_facts t
  funext y
  unfold iblk
  rw [View.read_apply]
  show V m c main_v15 _ = V m c main_v15 _
  congr 1
  funext a
  apply Fin.ext
  match a with
  | ⟨0, _⟩ => show win0_6.index t 0 * 4096 + 1 * (y 0).val = (y 0).val; rw [e0]; omega
  | ⟨1, _⟩ => show win0_6.index t 1 * 1152 + 1 * (y 1).val = (y 1).val; rw [e1]; omega

/-- `kblock` of blocks whose rows are rows of flat arrays is `kflat` of those arrays at the corresponding row. -/
theorem kblock_eq_kflat_at
    (x : (⟨2, ![256, 588]⟩ : Shape).Idx → EReal) (w : (⟨2, ![588, 1152]⟩ : Shape).Idx → EReal)
    (i0 : (⟨2, ![256, 1]⟩ : Shape).Idx → BitVec 32) (t0 : (⟨2, ![4096, 1152]⟩ : Shape).Idx → EReal)
    (i1 : (⟨2, ![256, 1]⟩ : Shape).Idx → BitVec 32) (t1 : (⟨2, ![4096, 1152]⟩ : Shape).Idx → EReal)
    (mk : (⟨2, ![256, 1]⟩ : Shape).Idx → EReal)
    (X : (⟨2, ![65536, 588]⟩ : Shape).Idx → EReal) (I0 I1 : (⟨2, ![65536, 1]⟩ : Shape).Idx → BitVec 32)
    (M : (⟨2, ![65536, 1]⟩ : Shape).Idx → EReal)
    (j : (⟨2, ![256, 1152]⟩ : Shape).Idx) (i : (⟨2, ![65536, 1152]⟩ : Shape).Idx)
    (hx : ∀ k : Fin 588, x (ix2 (j 0) k) = X (ix2 (i 0) k))
    (h0 : i0 (ix2 (j 0) (0 : Fin 1)) = I0 (ix2 (i 0) (0 : Fin 1)))
    (h1 : i1 (ix2 (j 0) (0 : Fin 1)) = I1 (ix2 (i 0) (0 : Fin 1)))
    (hm : mk (ix2 (j 0) (0 : Fin 1)) = M (ix2 (i 0) (0 : Fin 1)))
    (hc : j 1 = i 1) :
    Cert.Embed.kblock x w i0 t0 i1 t1 mk j = Cert.Embed.kflat X I0 I1 M w t0 t1 i := by
  unfold Cert.Embed.kblock Cert.Embed.kflat
  simp only [hx, h0, h1, hm, hc]

/-! ## What point t writes back, the cover, the array -/

/-- WHAT POINT t WRITES BACK is block t of `G`. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  unfold out0_7
  rw [View.canon_unit_zero hz]
  simp only [View.ld_unit_zero (S := S256x588) hz, View.ld_unit_zero (S := S588x1152) hz, View.ld_unit_zero (S := S256x1) hz,
    View.ld_unit_zero (S := S4096x1152) hz]
  rw [Cert.Embed.Pay.pay_eq, blkW_eq, blkT0_eq, blkT1_eq]
  obtain ⟨-, -, -, -, -, -, -, -, -, -, -, -, -, -, e0, e1⟩ := idx_facts t
  funext j
  rw [View.read_apply]
  show Cert.Embed.kblock (iblk m c 0 t) (aW m c) (iblk m c 1 t) (aT0 m c) (iblk m c 2 t) (aT1 m c) (iblk m c 3 t) j
    = G m c (((cfg0.win 7).blk t).view.emb j)
  have hr : ((((cfg0.win 7).blk t).view.emb j) 0).val = t.val * 256 + (j 0).val := by
    show win0_7.index t 0 * 256 + 1 * (j 0).val = _
    rw [e0]; omega
  have hc : ((((cfg0.win 7).blk t).view.emb j) 1).val = (j 1).val := by
    show win0_7.index t 1 * 1152 + 1 * (j 1).val = _
    rw [e1]; omega
  unfold G
  refine kblock_eq_kflat_at _ _ _ _ _ _ _ _ _ _ _ j _ (fun k => ?_) ?_ ?_ ?_ (Fin.ext hc.symm)
  · exact blkX_apply m c t _ _ hr rfl
  · exact blkI0_apply m c t _ _ hr
  · exact blkI1_apply m c t _ _ hr
  · exact blkM_apply m c t _ _ hr

/-- An index of the flat result is in point t's block iff its coordinates are in the block's ranges. -/
theorem mem_blk (t : Fin cfg0.N) (i : S65536x1152.Idx) :
    i ∈ ((cfg0.win 7).blk t).view.set ↔ ∀ a : Fin 2, win0_7.index t a * S256x1152.size a ≤ (i a).val ∧ (i a).val < win0_7.index t a * S256x1152.size a + S256x1152.size a := by
  show i ∈ ((View.whole main_v16).slice (win0_7.rect t)).set ↔ _
  rw [View.set_slice_whole, Rect.mem_set_unit]
  exact Iff.rfl

/-- Row r of the flat result lies in the block of point r / 256: the 256 row blocks tile the array. -/
theorem cover (i : S65536x1152.Idx) :
    ∃ t : Fin cfg0.N, (cfg0.win 7).flush t = true ∧ i ∈ ((cfg0.win 7).blk t).view.set := by
  have hi0 : (i 0).val < 65536 := (i 0).isLt
  have hi1 : (i 1).val < 1152 := (i 1).isLt
  have hN : cfg0.N = 256 := N_0
  let t : Fin cfg0.N := ⟨(i 0).val / 256, by rw [hN]; omega⟩
  obtain ⟨-, -, -, -, -, -, -, -, -, -, -, -, -, -, e0, e1⟩ := idx_facts t
  refine ⟨t, flush0_7 t, ?_⟩
  rw [mem_blk]
  intro a
  have ht : t.val = (i 0).val / 256 := rfl
  match a with
  | ⟨0, _⟩ => show win0_7.index t (0 : Fin 2) * 256 ≤ (i 0).val ∧ (i 0).val < win0_7.index t (0 : Fin 2) * 256 + 256; rw [e0]; omega
  | ⟨1, _⟩ => show win0_7.index t (1 : Fin 2) * 1152 ≤ (i 1).val ∧ (i 1).val < win0_7.index t (1 : Fin 2) * 1152 + 1152; rw [e1]; omega

/-- THE FLAT RESULT ARRAY after the call is `G`. -/
theorem final (c : Dev nD) : (dats m 0 c).arrAt 7 cfg0.N = G m c :=
  (dats m 0 c).arrAt_eq_of_cover 7 (G m c) (fun t _ => flushed_eq m c t) cover

/-! ## The reshape after the call, and the run -/

/-- The program's result: the flat result reshaped to [16, 4096, 1152]. -/
theorem result_eq (c : Dev nD) :
    Pipeline.afterTail₀ cfgs (dats m) 0 (V0 m) [hostOps1] c main_v17
      = shapeCast S16x4096x1152 (G m c) shapeCasts_S65536x1152_S16x4096x1152 := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.tc.devRef main_v16) = G m c :=
    (Pipeline.withArrays_arr spec0 launch0.win.arr_inj c _ _ 7).trans (final m c)
  rw [e]
  rfl

/-- THE RUN, READ: every weakly fair execution of the kernel program ends with the result array at the flat
    result reshaped, and the five argument arrays unchanged. -/
theorem run : θ_run defs (onTc (τ := τ) (main (F := Ideal))) ⟨m, fun _ => 0, ρ⟩ fun r => ∀ c : Dev nD,
      r.2.mem ((c.tc : Thread nD τ).loc main_v17) = shapeCast S16x4096x1152 (G m c) shapeCasts_S65536x1152_S16x4096x1152
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v17 (Pipeline.mem_restRefs_of main_v17 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      (((h c).2 main_arg4 (Pipeline.mem_restRefs_of main_arg4 (by decide) (by decide))).trans (W_main_arg4 m (dats m) c))⟩)
    (run_main m ρ)

end Cert.Embed.Kern

end
-- ==== Proof.Bridge.lean ====
/-
  The kernel's result, read at (b, n, h), is the reference's.  The host lines before the call lay the arguments out
  for the kernel: the pixels as a [65536, 588] matrix whose row 4096·b + n is token (b, n); the ids raised to at
  least 0 and split into two [65536, 1] columns; the padding bits as a [65536, 1] column of 1 − pad; the two
  [4096, 1152] slices of the table.  The reshape after the call reads row 4096·b + n back as token (b, n).  With
  every id below 4096 the one-hot products are the reference's table rows, and the mask factor is the
  reference's choice of 0.
-/
import proofs.«406469_j49331994362286_4_alg».proof.Proof.Spec
import proofs.«406469_j49331994362286_4_alg».proof.Proof.Lookup
import proofs.«406469_j49331994362286_4_alg».proof.Proof.KernelArr
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx

namespace Cert.Embed.Kern

open Cert.KernelIdeal Cert.KernelIdeal.Gen

variable (m : (ℓ : Loc nD τ sig) → Buf (Elt Ideal) ℓ)

/-! ## The five argument arrays, at their literal types -/

abbrev mX (c : Dev nD) : S16x4096x588.Idx → EReal := m ((c.tc : Thread nD τ).loc main_arg0)
abbrev mI (c : Dev nD) : S16x4096x2.Idx → BitVec 32 := m ((c.tc : Thread nD τ).loc main_arg1)
abbrev mP (c : Dev nD) : S16x4096.Idx → BitVec 1 := m ((c.tc : Thread nD τ).loc main_arg2)
abbrev mW (c : Dev nD) : S588x1152.Idx → EReal := m ((c.tc : Thread nD τ).loc main_arg3)
abbrev mT (c : Dev nD) : S2x4096x1152.Idx → EReal := m ((c.tc : Thread nD τ).loc main_arg4)

/-! ## The flat arrays as the host lines make them -/

theorem aX_eq (c : Dev nD) :
    aX m c = shapeCast S65536x588 (m ((c.tc : Thread nD τ).loc main_arg0)) shapeCasts_S16x4096x588_S65536x588 := by
  show StableHlo.after hostOps0 (fun b => m (c, b)) (Proc.devRef .tc main_v0) = _
  after_results
  rfl

theorem aI0_eq (c : Dev nD) :
    aI0 m c = extractStridedSlice S65536x1 ![0, 0]
      (shapeCast S65536x2 (maxsi (m ((c.tc : Thread nD τ).loc main_arg1))
        (broadcastInDim S16x4096x2 ![] bcast_S_S16x4096x2 (constantI S_ 32 0#32))) shapeCasts_S16x4096x2_S65536x2)
      slices_S65536x2_S65536x1_0_0 := by
  show StableHlo.after hostOps0 (fun b => m (c, b)) (Proc.devRef .tc main_v4) = _
  after_results
  rfl

theorem aI1_eq (c : Dev nD) :
    aI1 m c = extractStridedSlice S65536x1 ![0, 1]
      (shapeCast S65536x2 (maxsi (m ((c.tc : Thread nD τ).loc main_arg1))
        (broadcastInDim S16x4096x2 ![] bcast_S_S16x4096x2 (constantI S_ 32 0#32))) shapeCasts_S16x4096x2_S65536x2)
      slices_S65536x2_S65536x1_0_1 := by
  show StableHlo.after hostOps0 (fun b => m (c, b)) (Proc.devRef .tc main_v5) = _
  after_results
  rfl

theorem aM_eq (c : Dev nD) :
    aM m c = subf (broadcastInDim S65536x1 ![] bcast_S_S65536x1 (constant (F := Ideal) S_ .f32 0x3F800000#32))
      (uitofp (F := Ideal) .f32 (shapeCast S65536x1 (m ((c.tc : Thread nD τ).loc main_arg2)) shapeCasts_S16x4096_S65536x1)) := by
  show StableHlo.after hostOps0 (fun b => m (c, b)) (Proc.devRef .tc main_v9) = _
  after_results
  rfl

theorem aW_eq (c : Dev nD) : aW m c = m ((c.tc : Thread nD τ).loc main_arg3) := V_main_arg3 m c

theorem aT0_eq (c : Dev nD) :
    aT0 m c = truncf (F := Ideal) .bf16 (shapeCast S4096x1152
      (extractStridedSlice S1x4096x1152 ![0, 0, 0] (m ((c.tc : Thread nD τ).loc main_arg4)) slices_S2x4096x1152_S1x4096x1152_0_0_0)
      shapeCasts_S1x4096x1152_S4096x1152) bitsLt_bf16_f32 := by
  show StableHlo.after hostOps0 (fun b => m (c, b)) (Proc.devRef .tc main_v12) = _
  after_results
  rfl

theorem aT1_eq (c : Dev nD) :
    aT1 m c = truncf (F := Ideal) .bf16 (shapeCast S4096x1152
      (extractStridedSlice S1x4096x1152 ![1, 0, 0] (m ((c.tc : Thread nD τ).loc main_arg4)) slices_S2x4096x1152_S1x4096x1152_1_0_0)
      shapeCasts_S1x4096x1152_S4096x1152) bitsLt_bf16_f32 := by
  show StableHlo.after hostOps0 (fun b => m (c, b)) (Proc.devRef .tc main_v15) = _
  after_results
  rfl

/-! ## Their entries at token (b, n), flat row r = 4096·b + n -/

variable (c : Dev nD) (b : Fin 16) (n : Fin 4096) (r : Fin 65536)

theorem aX_apply (hr : r.val = b.val * 4096 + n.val) (k : Fin 588) :
    aX m c (ix2 r k) = mX m c (ix3 b n k) := by
  rw [aX_eq]
  refine shapeCast_apply _ _ (ix2 r k) (ix3 b n k) ?_
  rw [Shape.rowMajor_val_three, Shape.rowMajor_val_two]
  show (b.val * 4096 + n.val) * 588 + k.val = r.val * 588 + k.val
  rw [hr]

/-- The zero word broadcast over the ids, at an index. -/
theorem zeros_apply (i : S16x4096x2.Idx) :
    (broadcastInDim S16x4096x2 ![] bcast_S_S16x4096x2 (constantI S_ 32 0#32) : IVec S16x4096x2 32) i = 0#32 :=
  broadcastInDim_apply _ bcast_S_S16x4096x2 _ i (fun a => a.elim0) (fun a => a.elim0)

theorem aI0_apply (hr : r.val = b.val * 4096 + n.val) :
    aI0 m c (ix2 r (0 : Fin 1)) = Cert.Embed.raised (mI m c (ix3 b n (0 : Fin 2))) := by
  rw [aI0_eq]
  refine (extractStridedSlice_apply ![0, 0] _ slices_S65536x2_S65536x1_0_0 (ix2 r (0 : Fin 1)) (ix2 r (0 : Fin 2)) (fun a => by
    match a with
    | ⟨0, _⟩ => show r.val = 0 + r.val; omega
    | ⟨1, _⟩ => show 0 = 0 + 0; rfl)).trans ?_
  refine (shapeCast_apply _ shapeCasts_S16x4096x2_S65536x2 (ix2 r (0 : Fin 2)) (ix3 b n (0 : Fin 2)) (by
    rw [Shape.rowMajor_val_three, Shape.rowMajor_val_two]
    show (b.val * 4096 + n.val) * 2 + 0 = r.val * 2 + 0
    rw [hr])).trans ?_
  show IntOp.maxsi _ _ = IntOp.maxsi _ 0#32
  rw [zeros_apply]

theorem aI1_apply (hr : r.val = b.val * 4096 + n.val) :
    aI1 m c (ix2 r (0 : Fin 1)) = Cert.Embed.raised (mI m c (ix3 b n (1 : Fin 2))) := by
  rw [aI1_eq]
  refine (extractStridedSlice_apply ![0, 1] _ slices_S65536x2_S65536x1_0_1 (ix2 r (0 : Fin 1)) (ix2 r (1 : Fin 2)) (fun a => by
    match a with
    | ⟨0, _⟩ => show r.val = 0 + r.val; omega
    | ⟨1, _⟩ => show 1 = 1 + 0; rfl)).trans ?_
  refine (shapeCast_apply _ shapeCasts_S16x4096x2_S65536x2 (ix2 r (1 : Fin 2)) (ix3 b n (1 : Fin 2)) (by
    rw [Shape.rowMajor_val_three, Shape.rowMajor_val_two]
    show (b.val * 4096 + n.val) * 2 + 1 = r.val * 2 + 1
    rw [hr])).trans ?_
  show IntOp.maxsi _ _ = IntOp.maxsi _ 0#32
  rw [zeros_apply]

theorem aM_apply (hr : r.val = b.val * 4096 + n.val) :
    aM m c (ix2 r (0 : Fin 1))
      = Cert.Embed.cOne - (((mP m c (ix2 b n)).toNat : ℝ) : EReal) := by
  rw [aM_eq]
  show (broadcastInDim S65536x1 ![] bcast_S_S65536x1 (constant (F := Ideal) S_ .f32 0x3F800000#32) : S65536x1.Idx → EReal) (ix2 r (0 : Fin 1))
      - (((shapeCast S65536x1 (m ((c.tc : Thread nD τ).loc main_arg2)) shapeCasts_S16x4096_S65536x1 : S65536x1.Idx → BitVec 1) (ix2 r (0 : Fin 1))).toNat : ℝ) = _
  rw [broadcastInDim_apply _ bcast_S_S65536x1 _ (ix2 r (0 : Fin 1)) (fun a => a.elim0) (fun a => a.elim0),
    shapeCast_apply _ shapeCasts_S16x4096_S65536x1 (ix2 r (0 : Fin 1)) (ix2 b n) (by
      rw [Shape.rowMajor_val_two, Shape.rowMajor_val_two]
      show b.val * 4096 + n.val = r.val * 1 + 0
      rw [hr]; omega)]
  rfl

theorem aT0_apply (s : Fin 4096) (h : Fin 1152) :
    aT0 m c (ix2 s h) = mT m c (ix3 (0 : Fin 2) s h) := by
  rw [aT0_eq]
  rw [truncf_apply]
  refine (shapeCast_apply _ shapeCasts_S1x4096x1152_S4096x1152 (ix2 s h) (ix3 (0 : Fin 1) s h) (by
    rw [Shape.rowMajor_val_three, Shape.rowMajor_val_two]
    show (0 * 4096 + s.val) * 1152 + h.val = s.val * 1152 + h.val
    omega)).trans ?_
  exact extractStridedSlice_apply ![0, 0, 0] _ slices_S2x4096x1152_S1x4096x1152_0_0_0 (ix3 (0 : Fin 1) s h) (ix3 (0 : Fin 2) s h) (fun a => by
    match a with
    | ⟨0, _⟩ => show 0 = 0 + 0; rfl
    | ⟨1, _⟩ => show s.val = 0 + s.val; omega
    | ⟨2, _⟩ => show h.val = 0 + h.val; omega)

theorem aT1_apply (s : Fin 4096) (h : Fin 1152) :
    aT1 m c (ix2 s h) = mT m c (ix3 (1 : Fin 2) s h) := by
  rw [aT1_eq]
  rw [truncf_apply]
  refine (shapeCast_apply _ shapeCasts_S1x4096x1152_S4096x1152 (ix2 s h) (ix3 (0 : Fin 1) s h) (by
    rw [Shape.rowMajor_val_three, Shape.rowMajor_val_two]
    show (0 * 4096 + s.val) * 1152 + h.val = s.val * 1152 + h.val
    omega)).trans ?_
  exact extractStridedSlice_apply ![1, 0, 0] _ slices_S2x4096x1152_S1x4096x1152_1_0_0 (ix3 (0 : Fin 1) s h) (ix3 (1 : Fin 2) s h) (fun a => by
    match a with
    | ⟨0, _⟩ => show 1 = 1 + 0; rfl
    | ⟨1, _⟩ => show s.val = 0 + s.val; omega
    | ⟨2, _⟩ => show h.val = 0 + h.val; omega)

/-! ## The result -/

/-- THE KERNEL'S RESULT IS THE REFERENCE'S, when every position id is below 4096. -/
theorem result_eq_spec (c : Dev nD)
    (hlt : ∀ j : S16x4096x2.Idx, (mI m c j).toInt < 4096) :
    shapeCast S16x4096x1152 (G m c) shapeCasts_S65536x1152_S16x4096x1152
      = Cert.Embed.spec (mX m c) (mI m c) (mP m c) (mW m c) (mT m c) := by
  funext i
  obtain ⟨b, n, h, rfl⟩ : ∃ (b : Fin 16) (n : Fin 4096) (h : Fin 1152), i = ix3 b n h := ⟨i 0, i 1, i 2, eq_ix3 i⟩
  have hb : b.val < 16 := b.isLt
  have hn : n.val < 4096 := n.isLt
  let r : Fin 65536 := ⟨b.val * 4096 + n.val, by omega⟩
  have hr : r.val = b.val * 4096 + n.val := rfl
  refine (shapeCast_apply _ shapeCasts_S65536x1152_S16x4096x1152 (ix3 b n h) (ix2 r h) (by
    rw [Shape.rowMajor_val_two, Shape.rowMajor_val_three]
    show r.val * 1152 + h.val = (b.val * 4096 + n.val) * 1152 + h.val
    rw [hr])).trans ?_
  show (∑ k : Fin 588, (cTwo * (aX m c (ix2 r k) - cHalf)) * aW m c (ix2 k h))
      + ((∑ s : Fin 4096, hot (aI0 m c (ix2 r (0 : Fin 1))) s * aT0 m c (ix2 s h))
          + (∑ s : Fin 4096, hot (aI1 m c (ix2 r (0 : Fin 1))) s * aT1 m c (ix2 s h))) * aM m c (ix2 r (0 : Fin 1))
    = (∑ k : Fin 588, (cTwo * (mX m c (ix3 b n k) - cHalf))
          * mW m c (ix2 k h))
      + Scalar.select (mP m c (ix2 b n)) cZero
          (mT m c
              (ix3 (0 : Fin 2) (refRow (mI m c (ix3 b n (0 : Fin 2)))) h)
            + mT m c
              (ix3 (1 : Fin 2) (refRow (mI m c (ix3 b n (1 : Fin 2)))) h))
  have hW : aW m c = mW m c := aW_eq m c
  have hT0 : ∀ s : Fin 4096, aT0 m c (ix2 s h) = mT m c (ix3 (0 : Fin 2) s h) := fun s => aT0_apply m c s h
  have hT1 : ∀ s : Fin 4096, aT1 m c (ix2 s h) = mT m c (ix3 (1 : Fin 2) s h) := fun s => aT1_apply m c s h
  simp only [aX_apply m c b n r hr, aI0_apply m c b n r hr, aI1_apply m c b n r hr, aM_apply m c b n r hr, hW, hT0, hT1]
  have e0 := lookup_eq _ (hlt (ix3 b n (0 : Fin 2)))
    (fun s => mT m c (ix3 (0 : Fin 2) s h))
  have e1 := lookup_eq _ (hlt (ix3 b n (1 : Fin 2)))
    (fun s => mT m c (ix3 (1 : Fin 2) s h))
  beta_reduce at e0 e1
  rw [e0, e1, mask_mul]

end Cert.Embed.Kern

end
-- ==== Proof.lean ====
/-
  The certificate of the patch embedder: the Pallas kernel against its jnp reference, over the extended reals,
  for finite float inputs and position ids below the table's height 4096.

    out[b, n, h] = Σ_k (2 · (x[b, n, k] − ½)) · W[k, h] + (0 if pad[b, n] else T[0, id₀, h] + T[1, id₁, h]).

  The reference takes the two table rows by a gather; the kernel multiplies a one-hot matrix (row p has a one in
  column id) with each table on the matrix unit and multiplies the sum by the mask 1 − pad.  Over the extended reals
  0 · T = 0 for every T, so the one-hot product is the row T[id, ·] exactly when some column matches, that is when
  id < 4096; beyond that the kernel would add nothing where the reference's gather clamps to row 4095, which is why
  the ids' range is part of the precondition.  Changes of float format (the bf16 operands of the products) are the
  identity here, and a product into a zero accumulator is the plain sum.

  The parts: `Spec` states the result both ways and proves the one-hot sum; `RefValue` reads the reference's run
  as that function; `Payload` reads the kernel body's arithmetic at an index; `KernelArr` shows that the 256 grid
  points' row blocks tile the flat result and that the final reshape lays it out per token; `Lookup` has the
  integer and mask facts; `Bridge` joins the two sides at an index; `PreIds` reads the ids' range off the
  precondition.  The three frames are the programs' runs with the results dropped; the idealization rewrote
  nothing, so `preserves` is trivial.
-/
import proofs.«406469_j49331994362286_4_alg».proof.Defs
import proofs.«406469_j49331994362286_4_alg».proof.Proof.Gen.Kernel
import proofs.«406469_j49331994362286_4_alg».proof.Proof.Gen.Kernel.Skeleton
import proofs.«406469_j49331994362286_4_alg».proof.Proof.Gen.Kernel.Launch
import proofs.«406469_j49331994362286_4_alg».proof.Proof.Gen.Kernel.Points
import proofs.«406469_j49331994362286_4_alg».proof.Proof.Gen.Kernel.Frame
import proofs.«406469_j49331994362286_4_alg».proof.Proof.Gen.KernelIdeal
import proofs.«406469_j49331994362286_4_alg».proof.Proof.Gen.KernelIdeal.Skeleton
import proofs.«406469_j49331994362286_4_alg».proof.Proof.Gen.KernelIdeal.Launch
import proofs.«406469_j49331994362286_4_alg».proof.Proof.Gen.KernelIdeal.Points
import proofs.«406469_j49331994362286_4_alg».proof.Proof.Gen.KernelIdeal.Frame
import proofs.«406469_j49331994362286_4_alg».proof.Proof.Gen.ReferenceIdeal
import proofs.«406469_j49331994362286_4_alg».proof.Proof.Gen.ReferenceIdeal.Run
import proofs.«406469_j49331994362286_4_alg».proof.Proof.Gen.ReferenceIdeal.Read
import proofs.«406469_j49331994362286_4_alg».proof.Proof.Gen.Pre_finite_inputs
import proofs.«406469_j49331994362286_4_alg».proof.Proof.Spec
import proofs.«406469_j49331994362286_4_alg».proof.Proof.Lookup
import proofs.«406469_j49331994362286_4_alg».proof.Proof.Payload
import proofs.«406469_j49331994362286_4_alg».proof.Proof.RefValue
import proofs.«406469_j49331994362286_4_alg».proof.Proof.PreIds
import proofs.«406469_j49331994362286_4_alg».proof.Proof.KernelArr
import proofs.«406469_j49331994362286_4_alg».proof.Proof.Bridge
import Idealize.ShloMosaic.Adequacy
import Idealize.ShloMosaic.Init

noncomputable section

namespace Cert.Proof

open Idealize.ShloMosaic Idealize.SL.Sem

/-- The word-level kernel runs and keeps its arguments: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `Cert.Embed.spec` of the arguments: the kernel by its blocks, the
    reshape and the one-hot lookup (the ids below 4096 by the precondition), the reference by its run read one
    operation at a time. -/
theorem algebraic : Cert.algebraic_KernelIdeal_ReferenceIdeal := by
  intro m ρ m' ρ' hpre hagree
  have hlt : ∀ (c : Dev Cert.KernelIdeal.nD) (j : Cert.KernelIdeal.S16x4096x2.Idx),
      (Cert.Embed.Kern.mI m c j).toInt < 4096 := fun c j =>
    Cert.Embed.Pre.ids_lt_of_pre (F := Ideal) _ _ _ _ _ (hpre c) j
  refine ⟨fun c => Cert.Embed.spec (Cert.Embed.Kern.mX m c) (Cert.Embed.Kern.mI m c) (Cert.Embed.Kern.mP m c)
    (Cert.Embed.Kern.mW m c) (Cert.Embed.Kern.mT m c), ?_, ?_⟩
  · exact (θ_run Cert.KernelIdeal.defs _ _).mono
      (fun r h c => ⟨(h c).1.trans (Cert.Embed.Kern.result_eq_spec m c (hlt c)), (h c).2⟩) (Cert.Embed.Kern.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v32_eq, Cert.Embed.Ref.ref_eq_spec,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
